-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S800000 : Shape := ⟨1, ![800000]⟩
abbrev S500x128 : Shape := ⟨2, ![500, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S1x800000 : Shape := ⟨2, ![1, 800000]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S800000 : S_.BroadcastsInDim S800000 (![] : Fin 0 → Fin S800000.rank)
  reducesTo_S800000_S_d0 : S800000.ReducesTo [0] S_
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000

variable [Facts]

def fn_part2 {F : FTy → Type} [FloatOps F] (main_arg1 : IVec S2x800000 32) (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : IVec S1x800000 32 := (extractStridedSlice S1x800000 ![0, 0] · slices_S2x800000_S1x800000_0_0) main_arg1
  let main_v40 : IVec S800000 32 := shapeCast S800000 main_v39 shapeCasts_S1x800000_S800000
  let main_c_14 : IVec S_ 32 := constantI S_ 32 4294917296#32
  let main_v41 : IVec S800000 32 := broadcastInDim S800000 ![] bcast_S_S800000 main_c_14
  let main_v42 : IVec S800000 1 := cmpi .sge main_v40 main_v41
  let main_c_15 : IVec S_ 1 := constantI S_ 1 1#1
  let main_v43 : IVec S_ 1 := (fun x v => Host.reduce IntOp.andi x v reducesTo_S800000_S_d0 h_S_) main_v42 main_c_15
  let main_v44 : IVec S_ 1 := andi main_v38 main_v43
  let main_v45 : IVec S1x800000 32 := (extractStridedSlice S1x800000 ![0, 0] · slices_S2x800000_S1x800000_0_0) main_arg1
  let main_v46 : IVec S800000 32 := shapeCast S800000 main_v45 shapeCasts_S1x800000_S800000
  let main_c_16 : IVec S_ 32 := constantI S_ 32 50000#32
  let main_v47 : IVec S800000 32 := broadcastInDim S800000 ![] bcast_S_S800000 main_c_16
  let main_v48 : IVec S800000 1 := cmpi .slt main_v46 main_v47
  let main_c_17 : IVec S_ 1 := constantI S_ 1 1#1
  let main_v49 : IVec S_ 1 := (fun x v => Host.reduce IntOp.andi x v reducesTo_S800000_S_d0 h_S_) main_v48 main_c_17
  let main_v50 : IVec S_ 1 := andi main_v44 main_v49
  main_v50

def fn_part1 {F : FTy → Type} [FloatOps F] (main_arg1 : IVec S2x800000 32) (main_arg5 : FVec F S128x128 .f32) (main_arg6 : FVec F S128 .f32) (main_arg7 : FVec F S128x10 .f32) (main_arg8 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg7
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg1 main_arg8 main_v33

def fn {F : FTy → Type} [FloatOps F] (main_arg0 : FVec F S50000x500 .f32) (main_arg1 : IVec S2x800000 32) (main_arg2 : FVec F S800000 .f32) (main_arg3 : FVec F S500x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S500x128 .f32 := Host.absf main_arg3
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S50000x500 : Shape := ⟨2, ![50000, 500]⟩
abbrev S2x800000 : Shape := ⟨2, ![2, 800000]⟩
abbrev S800000 : Shape := ⟨1, ![800000]⟩
abbrev S500x128 : Shape := ⟨2, ![500, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x500 : Shape := ⟨2, ![2000, 500]⟩
abbrev S2000x128 : Shape := ⟨2, ![2000, 128]⟩
abbrev S1 : Shape := ⟨1, ![1]⟩
abbrev S1x1 : Shape := ⟨2, ![1, 1]⟩
abbrev S850000x128 : Shape := ⟨2, ![850000, 128]⟩
abbrev S1x128 : Shape := ⟨2, ![1, 128]⟩
abbrev S1x10 : Shape := ⟨2, ![1, 10]⟩
abbrev S50000x10 : Shape := ⟨2, ![50000, 10]⟩
abbrev S2000x10 : Shape := ⟨2, ![2000, 10]⟩

abbrev nBuf : Space → Nat
  | .hbm => 124
  | .vmem => 18
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S800000, .f32⟩
  | .hbm, ⟨3, _⟩ => ⟨S500x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S1, .i32⟩
  | .hbm, ⟨68, _⟩ => ⟨S_, .i32⟩
  | .hbm, ⟨69, _⟩ => ⟨S850000x1, .i32⟩
  | .hbm, ⟨70, _⟩ => ⟨S850000x1, .i1⟩
  | .hbm, ⟨71, _⟩ => ⟨S1x1, .i32⟩
  | .hbm, ⟨72, _⟩ => ⟨S850000x1, .i32⟩
  | .hbm, ⟨73, _⟩ => ⟨S850000x1, .i1⟩
  | .hbm, ⟨74, _⟩ => ⟨S850000x1, .i1⟩
  | .hbm, ⟨75, _⟩ => ⟨S_, .i1⟩
  | .hbm, ⟨76, _⟩ => ⟨S850000, .i1⟩
  | .hbm, ⟨77, _⟩ => ⟨S850000x128, .f32⟩
  | .hbm, ⟨78, _⟩ => ⟨S850000x128, .i1⟩
  | .hbm, ⟨79, _⟩ => ⟨S_, .f32⟩
  | .hbm, ⟨80, _⟩ => ⟨S850000x128, .f32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S1, .i32⟩
  | .hbm, ⟨100, _⟩ => ⟨S_, .i32⟩
  | .hbm, ⟨101, _⟩ => ⟨S850000x1, .i32⟩
  | .hbm, ⟨102, _⟩ => ⟨S850000x1, .i1⟩
  | .hbm, ⟨103, _⟩ => ⟨S1x1, .i32⟩
  | .hbm, ⟨104, _⟩ => ⟨S850000x1, .i32⟩
  | .hbm, ⟨105, _⟩ => ⟨S850000x1, .i1⟩
  | .hbm, ⟨106, _⟩ => ⟨S850000x1, .i1⟩
  | .hbm, ⟨107, _⟩ => ⟨S_, .i1⟩
  | .hbm, ⟨108, _⟩ => ⟨S850000, .i1⟩
  | .hbm, ⟨109, _⟩ => ⟨S850000x128, .f32⟩
  | .hbm, ⟨110, _⟩ => ⟨S850000x128, .i1⟩
  | .hbm, ⟨111, _⟩ => ⟨S_, .f32⟩
  | .hbm, ⟨112, _⟩ => ⟨S850000x128, .f32⟩
  | .hbm, ⟨113, _⟩ => ⟨S850000x128, .f32⟩
  | .hbm, ⟨114, _⟩ => ⟨S850000x1, .f32⟩
  | .hbm, ⟨115, _⟩ => ⟨S850000x128, .f32⟩
  | .hbm, ⟨116, _⟩ => ⟨S850000x128, .f32⟩
  | .hbm, ⟨117, _⟩ => ⟨S_, .f32⟩
  | .hbm, ⟨118, _⟩ => ⟨S50000x128, .f32⟩
  | .hbm, ⟨119, _⟩ => ⟨S850000x1, .i32⟩
  | .hbm, ⟨120, _⟩ => ⟨S50000x128, .f32⟩
  | .hbm, ⟨121, _⟩ => ⟨S1x128, .f32⟩
  | .hbm, ⟨122, _⟩ => ⟨S1x10, .f32⟩
  | .hbm, ⟨123, _⟩ => ⟨S50000x10, .f32⟩
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x10, .f32⟩
  | .local _ .vmem, ⟨15, _⟩ => ⟨S1x10, .f32⟩
  | .local _ .vmem, ⟨16, _⟩ => ⟨S2000x10, .f32⟩
  | .local _ .vmem, ⟨17, _⟩ => ⟨S2000x10, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_8 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_9 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x10 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x500_S500x128_S2000x128_1_0_0_1_n_n_wf : DotDims.WF S2000x500 S500x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .f32 = 32 ∨ (Rect.block (s := S50000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x10.size a ≤ S128x10.size a
  hwx2_2 : ∀ i : grid2.Coords, EltTy.bits .f32 = 32 ∨ (Rect.block (s := S128x10) S128x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x10.size a ≤ S50000x10.size a
  hwx2_4 : ∀ i : grid2.Coords, EltTy.bits .f32 = 32 ∨ (Rect.block (s := S50000x10) S2000x10.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S2000x10.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S800000 : Shape := ⟨1, ![800000]⟩
abbrev S500x128 : Shape := ⟨2, ![500, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x10 : Shape := ⟨2, ![50000, 10]⟩
abbrev S1x10 : Shape := ⟨2, ![1, 10]⟩

abbrev nBuf : Space → Nat
  | .hbm => 108
  | .vmem => 0
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S800000, .f32⟩
  | .hbm, ⟨3, _⟩ => ⟨S500x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x128, .f32⟩
  | .hbm, ⟨68, _⟩ => ⟨S850000x1, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x10, .f32⟩
  | .hbm, ⟨105, _⟩ => ⟨S1x10, .f32⟩
  | .hbm, ⟨106, _⟩ => ⟨S50000x10, .f32⟩
  | .hbm, ⟨107, _⟩ => ⟨S50000x10, .f32⟩
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x500_S500x128_S50000x128_1_0_0_1_n_n_wf : DotDims.WF S50000x500 S500x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x500_S500x128_S50000x128_1_0_0_1_n_n : DotDims S50000x500 S500x128 S50000x128 where
  lhsContracting := [1]
  rhsContracting := [0]
  lhsNonContracting := [0]
  rhsNonContracting := [1]
  lhsBatch := []
  rhsBatch := []
  wf := dot_S50000x500_S500x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.GcnSpec.lean ====
/-
  The dense layers of a graph convolution network as functions of whole arrays, at the ideal instance
  (floats are the extended reals, every operation exact).

  `mm l r` is the matrix product: at `(p, q)` the sum over `k` of `l[p, k] * r[k, q]`. `biasRelu a b` adds the row
  `b` (kept as a `[1, K]` array) to every row of `a` and takes the maximum with zero, entry by entry. The host's
  general dot product with the plain matrix-product dimension numbers is `mm`.
-/
import proofs.«408532_j34540126994447_1_alg».proof.Proof.LibDot2

noncomputable section

open scoped BigOperators

namespace Gcn

open Idealize.ShloMosaic Idealize.ShloMosaic.ValueIdx

/-- The matrix product of an `[M, K]` array by a `[K, N]` array: at `(p, q)`, `∑ k, l[p, k] * r[k, q]`. -/
def mm {M K N : Nat} (l : (⟨2, ![M, K]⟩ : Shape).Idx → EReal) (r : (⟨2, ![K, N]⟩ : Shape).Idx → EReal) :
    (⟨2, ![M, N]⟩ : Shape).Idx → EReal :=
  fun i => ∑ k : Fin K, l (ix2 (n0 := M) (n1 := K) (i 0) k) * r (ix2 (n0 := K) (n1 := N) k (i 1))

theorem mm_apply {M K N : Nat} (l : (⟨2, ![M, K]⟩ : Shape).Idx → EReal) (r : (⟨2, ![K, N]⟩ : Shape).Idx → EReal)
    (p : Fin M) (q : Fin N) : mm l r (ix2 p q) = ∑ k : Fin K, l (ix2 p k) * r (ix2 k q) := rfl

/-- The zero of the f32 format, as the extended real its word encodes. -/
abbrev zeroF : EReal := Ideal.ofBits .f32 0x00000000#32

/-- A bias row added to every row, then the maximum with zero: `max (a[p, k] + b[0, k]) 0`. -/
def biasRelu {M K : Nat} (a : (⟨2, ![M, K]⟩ : Shape).Idx → EReal) (b : (⟨2, ![1, K]⟩ : Shape).Idx → EReal) :
    (⟨2, ![M, K]⟩ : Shape).Idx → EReal :=
  fun i => max (a i + b (ix2 (n0 := 1) (n1 := K) 0 (i 1))) zeroF

theorem biasRelu_apply {M K : Nat} (a : (⟨2, ![M, K]⟩ : Shape).Idx → EReal) (b : (⟨2, ![1, K]⟩ : Shape).Idx → EReal)
    (p : Fin M) (k : Fin K) : biasRelu a b (ix2 p k) = max (a (ix2 p k) + b (ix2 0 k)) zeroF := rfl

/-- A bias row added to every row of an array: `a[p, q] + b[0, q]`. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 (n0 := 1) (n1 := N) 0 (i 1))

theorem addRow_apply {M N : Nat} (a : (⟨2, ![M, N]⟩ : Shape).Idx → EReal) (b : (⟨2, ![1, N]⟩ : Shape).Idx → EReal)
    (p : Fin M) (q : Fin N) : addRow a b (ix2 p q) = a (ix2 p q) + b (ix2 0 q) := rfl

/-- The host's general dot product with the matrix product's dimension numbers is `mm`. -/
theorem host_dot_eq_mm {M K N : Nat}
    (wf : DotDims.WF ⟨2, ![M, K]⟩ ⟨2, ![K, N]⟩ ⟨2, ![M, N]⟩ [1] [0] [0] [1] [] [])
    (prec : Option ContractPrecision) (l : FVec Ideal ⟨2, ![M, K]⟩ .f32) (r : FVec Ideal ⟨2, ![K, N]⟩ .f32) :
    Host.dotGeneral (Dot2.mmDims M K N wf) prec l r = mm l r := by
  funext i
  obtain ⟨p, q, rfl⟩ : ∃ (p : Fin M) (q : Fin N), i = ix2 p q := ⟨i 0, i 1, eq_ix2 i⟩
  exact Dot2.host_dotGeneral_mm_apply wf prec l r p q

end Gcn

end
-- ==== Proof.KRegion0.lean ====
/-
  The first dense layer's kernel, read as a whole array: after its 25 grid points the output array is the matrix
  product of the node features by the first weight matrix.

  Grid point `t` stages rows `2000 t … 2000 t + 1999` of the `[50000, 500]` operand and the whole `[500, 128]` weight,
  multiplies them into a zero accumulator, and writes the `[2000, 128]` product back as rows `2000 t …` of the result.
  At the ideal instance the product is the plain sum over the contracted index, so block `t` of the result is block `t`
  of `Gcn.mm` of the two whole arrays; the 25 blocks cover all 50000 rows.
-/
import proofs.«408532_j34540126994447_1_alg».proof.Proof.Gen.KernelIdeal.Frame
import proofs.«408532_j34540126994447_1_alg».proof.Proof.GcnSpec
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

namespace Region0

/-- The zero offset of every access of the body, as the constant function. -/
theorem zero_off : (![0, 0] : Fin 2 → Nat) = fun _ => 0 := funext fun a => by fin_cases a <;> rfl

/-- The body's payload at `(p, q)`: the narrowing of both operands is the identity on the extended reals, and
    the product accumulated into the zero array is the plain sum over the contracted index. -/
theorem product_apply (x0 : Vec Ideal S2000x500 .f32) (x1 : Vec Ideal S500x128 .f32) (p : Fin 2000) (q : Fin 128) :
    k0_pay1 x0 x1 (ix2 p q) = ∑ k : Fin 500, x0 (ix2 p k) * x1 (ix2 k q) := by
  unfold k0_pay1
  exact Dot2.matmul_zero_mm_apply dot_S2000x500_S500x128_S2000x128_1_0_0_1_n_n.wf none _ _ p q

/-- The windows' block indices at every grid point: the row operand and the result move one block of rows per
    point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at point `t` is rows `2000 t … 2000 t + 1999` of the whole operand. -/
theorem rows_apply (c : Dev nD) (t : Fin cfg0.N) (x : S2000x500.Idx) (i : S50000x500.Idx)
    (h0 : (i 0).val = 2000 * t.val + (x 0).val) (h1 : (i 1).val = (x 1).val) :
    (iblk0 V c 0 t : Vec Ideal S2000x500 .f32) x = (V c main_arg0 : S50000x500.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (i 0).val; rw [e0, h0]; omega
  | ⟨1, _⟩ => show win0_0.index t 1 * 500 + 1 * (x 1).val = (i 1).val; rw [e1, h1]; omega

/-- The weight's block at every point is the whole weight. -/
theorem weight_apply (c : Dev nD) (t : Fin cfg0.N) (x : S500x128.Idx) :
    (iblk0 V c 1 t : Vec Ideal S500x128 .f32) x = (V c main_arg3 : S500x128.Idx → EReal) x := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 500 + 1 * (x 0).val = (x 0).val; rw [e2]; omega
  | ⟨1, _⟩ => show win0_1.index t 1 * 128 + 1 * (x 1).val = (x 1).val; rw [e3]; omega

/-- What point `t` writes back is block `t` of the product of the two whole arrays: entry `(p, q)` of the block is
    the sum over `k` of row `2000 t + p` of the operand against column `q` of the weight. -/
theorem flushed_eq (c : Dev nD) (t : Fin cfg0.N) :
    (dat0 V c).flushed 2 t = ((cfg0.win 2).blk t).view.read (Elt Ideal)
      (Gcn.mm (M := 50000) (K := 500) (N := 128) (V c main_arg0) (V c main_arg3)) := by
  show (cfg0.win 2).cut (grid0.coords t) ((dat0 V c).after 2 t) = _
  rw [after0_2]
  unfold out0_2
  rw [View.canon_unit_zero zero_off]
  simp only [View.ld_unit_zero (S := S2000x500) zero_off, View.ld_unit_zero (S := S500x128) zero_off]
  obtain ⟨-, -, -, -, e4, e5⟩ := idx_facts t
  funext j
  obtain ⟨p, q, rfl⟩ : ∃ (p : Fin 2000) (q : Fin 128), j = ix2 p q := ⟨j 0, j 1, eq_ix2 j⟩
  have ht : t.val < 25 := t.isLt
  have hr : 2000 * t.val + p.val < 50000 := by omega
  have hemb : ((cfg0.win 2).blk t).view.emb (ix2 p q) = ix2 (n0 := 50000) (n1 := 128) ⟨2000 * t.val + p.val, hr⟩ q := by
    funext a
    apply Fin.ext
    match a with
    | ⟨0, _⟩ => show win0_2.index t 0 * 2000 + 1 * p.val = 2000 * t.val + p.val; rw [e4]; omega
    | ⟨1, _⟩ => show win0_2.index t 1 * 128 + 1 * q.val = q.val; rw [e5]; omega
  show k0_pay1 (iblk0 V c 0 t) (iblk0 V c 1 t) (ix2 p q) = Gcn.mm _ _ (((cfg0.win 2).blk t).view.emb (ix2 p q))
  rw [hemb, Gcn.mm_apply]
  refine (product_apply _ _ p q).trans ?_
  refine Finset.sum_congr rfl fun k _ => ?_
  rw [rows_apply V c t (ix2 p k) (ix2 ⟨2000 * t.val + p.val, hr⟩ k) rfl rfl, weight_apply V c t (ix2 k q)]

/-- An index of the result is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v35).slice (win0_2.rect t)).set ↔ _
  rw [View.set_slice_whole, Rect.mem_set_unit]
  exact Iff.rfl

/-- The 25 blocks cover the result: row `r` is in the block of point `r / 2000`, and a block spans all 128 columns. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := by show (i 0).val / 2000 < 25; omega
  obtain ⟨-, -, -, -, e4, e5⟩ := idx_facts ⟨(i 0).val / 2000, hN⟩
  have q0 : win0_2.index ⟨(i 0).val / 2000, hN⟩ (0 : Fin 2) = (i 0).val / 2000 := e4
  refine ⟨⟨(i 0).val / 2000, hN⟩, flush0_2 _, ?_⟩
  rw [mem_blk]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    omega

end Region0

/-- Region 0's output array after its last grid point. -/
theorem region0_array (c : Dev nD) :
    (dat0 V c).arrAt 2 cfg0.N = Gcn.mm (M := 50000) (K := 500) (N := 128) (V c main_arg0) (V c main_arg3) :=
  (dat0 V c).arrAt_eq_of_cover 2 (Gcn.mm (M := 50000) (K := 500) (N := 128) (V c main_arg0) (V c main_arg3))
    (fun t _ => Region0.flushed_eq V c t) Region0.cover

end Cert.KernelIdeal.Hand

end
-- ==== Proof.KRegion1.lean ====
/-
  The second dense layer's kernel, read as a whole array: after its 25 grid points the output array is
  `relu(a + b) · W`, the aggregated features plus a bias row, clipped below at zero, times the weight matrix.

  Grid point `t` stages rows `2000 t … 2000 t + 1999` of the `[50000, 128]` operand, the whole `[1, 128]` bias row and the
  whole `[128, 128]` weight; it adds the bias row to every staged row, takes the maximum with zero, multiplies into a
  zero accumulator and writes the `[2000, 128]` product back as rows `2000 t …` of the result. Block `t` of the result
  is block `t` of `Gcn.mm (Gcn.biasRelu a b) W`; the 25 blocks cover all 50000 rows.
-/
import proofs.«408532_j34540126994447_1_alg».proof.Proof.Gen.KernelIdeal.Frame
import proofs.«408532_j34540126994447_1_alg».proof.Proof.GcnSpec
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

/-- The body's stored value at `(p, q)`: the staged rows plus the bias row, clipped below at zero, contracted
    along the 128 columns with the staged weight. Narrowing to the short float is the identity here, the two
    shape casts are to the same shape, the bias row is read at row 0 whatever `p`, and the accumulator is zero. -/
theorem payload1_apply (x0 : Vec Ideal S2000x128 .f32) (x1 : Vec Ideal S1x128 .f32) (x2 : Vec Ideal S128x128 .f32)
    (p : Fin 2000) (q : Fin 128) :
    k1_pay1 x0 x1 x2 (ix2 p q) = ∑ k : Fin 128, max (x0 (ix2 p k) + x1 (ix2 0 k)) Gcn.zeroF * x2 (ix2 k q) := by
  unfold k1_pay1
  refine (Dot2.matmul_zero_mm_apply Facts₀.dot_S2000x128_S128x128_S2000x128_1_0_0_1_n_n_wf none _ _ p q).trans ?_
  refine Finset.sum_congr rfl fun k _ => ?_
  rw [truncf_apply, truncf_apply, maximumf_apply, addf_apply, broadcast_apply, shapeCast_self, shapeCast_self,
    broadcastTo_1b_ab_apply]
  rfl

/-- The origin of a rank-2 array, as the constant-zero offset. -/
theorem origin2 : (![0, 0] : Fin 2 → Nat) = fun _ => 0 := funext fun a => by fin_cases a <;> rfl

/-- The whole result: `relu(a + b) · W` of the arrays as the region finds them. -/
abbrev result1 (c : Dev nD) : S50000x128.Idx → EReal :=
  Gcn.mm (M := 50000) (K := 128) (N := 128) (Gcn.biasRelu (M := 50000) (K := 128) (V c main_v42) (V c main_v43)) (V c main_arg5)

/-- The windows' block indices at every grid point: the operand's and the result's block row is the point itself, every
    other block index is 0. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand's block at point `t` is rows `2000 t …` of the operand. -/
theorem operand_block_apply (c : Dev nD) (t : Fin cfg1.N) (x : S2000x128.Idx) (i : S50000x128.Idx)
    (h0 : (i 0).val = 2000 * t.val + (x 0).val) (h1 : (i 1).val = (x 1).val) :
    (iblk1 V c 0 t : Vec Ideal S2000x128 .f32) x = (V c main_v42 : S50000x128.Idx → EReal) i := by
  obtain ⟨e0, e1, -⟩ := index_maps1 t
  unfold iblk1
  rw [View.read_apply]
  show V c main_v42 _ = V c main_v42 _
  congr 1
  funext a
  apply Fin.ext
  match a with
  | ⟨0, _⟩ => show win1_0.index t 0 * 2000 + 1 * (x 0).val = (i 0).val; rw [e0, h0]; omega
  | ⟨1, _⟩ => show win1_0.index t 1 * 128 + 1 * (x 1).val = (i 1).val; rw [e1, h1]; omega

/-- The bias row's block at any point is the whole row. -/
theorem bias_block_apply (c : Dev nD) (t : Fin cfg1.N) (x : S1x128.Idx) :
    (iblk1 V c 1 t : Vec Ideal S1x128 .f32) x = (V c main_v43 : S1x128.Idx → EReal) x := by
  obtain ⟨-, -, e0, e1, -⟩ := index_maps1 t
  unfold iblk1
  rw [View.read_apply]
  show V c main_v43 _ = V c main_v43 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The weight's block at any point is the whole weight. -/
theorem weight_block_apply (c : Dev nD) (t : Fin cfg1.N) (x : S128x128.Idx) :
    (iblk1 V c 2 t : Vec Ideal S128x128 .f32) x = (V c main_arg5 : S128x128.Idx → EReal) x := by
  obtain ⟨-, -, -, -, e0, e1, -⟩ := index_maps1 t
  unfold iblk1
  rw [View.read_apply]
  show V c main_arg5 _ = V c main_arg5 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- What the body stores at point `t`, at `(p, q)` of its block, is the whole result at row `2000 t + p`, column `q`. -/
theorem stored_apply (c : Dev nD) (t : Fin cfg1.N) (p : Fin 2000) (q : Fin 128) (r : Fin 50000)
    (hr : r.val = 2000 * t.val + p.val) :
    k1_pay1 (iblk1 V c 0 t) (iblk1 V c 1 t) (iblk1 V c 2 t) (ix2 p q) = result1 V c (ix2 r q) := by
  refine (payload1_apply (iblk1 V c 0 t) (iblk1 V c 1 t) (iblk1 V c 2 t) p q).trans ?_
  unfold result1
  rw [Gcn.mm_apply]
  refine Finset.sum_congr rfl fun k _ => ?_
  rw [Gcn.biasRelu_apply, operand_block_apply V c t (ix2 p k) (ix2 r k) hr rfl, bias_block_apply V c t (ix2 0 k),
    weight_block_apply V c t (ix2 k q)]

/-- WHAT POINT `t` WRITES BACK is block `t` of the whole result: the one store covers the staging buffer from its
    origin, the loads read the staged blocks from theirs, and the block's row `p` is the array's row `2000 t + p`. -/
theorem flushed1_eq (c : Dev nD) (t : Fin cfg1.N) :
    (dat1 V c).flushed 3 t = ((cfg1.win 3).blk t).view.read (Elt Ideal) (result1 V c) := by
  show (cfg1.win 3).cut (grid1.coords t) ((dat1 V c).after 3 t) = _
  rw [after1_3]
  unfold out1_3
  rw [View.canon_unit_zero origin2]
  simp only [View.ld_unit_zero (S := S2000x128) origin2, View.ld_unit_zero (S := S1x128) origin2,
    View.ld_unit_zero (S := S128x128) origin2]
  obtain ⟨-, -, -, -, -, -, e0, e1⟩ := index_maps1 t
  have ht : t.val < 25 := t.isLt
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (ix2 p q)
    = result1 V c (((cfg1.win 3).blk t).view.emb (ix2 p q))
  have hemb : ((cfg1.win 3).blk t).view.emb (ix2 p q)
      = ix2 (n0 := 50000) (n1 := 128) ⟨2000 * t.val + p.val, by have := p.isLt; omega⟩ q := by
    funext a
    apply Fin.ext
    match a with
    | ⟨0, _⟩ => show win1_3.index t 0 * 2000 + 1 * p.val = 2000 * t.val + p.val; rw [e0]; omega
    | ⟨1, _⟩ => show win1_3.index t 1 * 128 + 1 * q.val = q.val; rw [e1]; omega
  rw [hemb]
  exact stored_apply V c t p q _ rfl

/-- An index of the result array is in point `t`'s block iff each coordinate is in the block's range on its axis. -/
theorem mem_block1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v44).slice (win1_3.rect t)).set ↔ _
  rw [View.set_slice_whole, Rect.mem_set_unit]
  exact Iff.rfl

/-- Row `r` of the result is in the block of point `r / 2000`, which writes back: the 25 blocks cover the array. -/
theorem covered1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < 25; omega⟩, rfl⟩
  obtain ⟨-, -, -, -, -, -, e0, e1⟩ := index_maps1 t
  refine ⟨t, flush1_3 t, ?_⟩
  rw [mem_block1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- Region 1's output array after its last grid point. -/
theorem region1_array (c : Dev nD) :
    (dat1 V c).arrAt 3 cfg1.N
      = Gcn.mm (M := 50000) (K := 128) (N := 128) (Gcn.biasRelu (M := 50000) (K := 128) (V c main_v42) (V c main_v43)) (V c main_arg5) :=
  (dat1 V c).arrAt_eq_of_cover 3 (result1 V c) (fun t _ => flushed1_eq V c t) covered1

end Cert.KernelIdeal.Hand

end
-- ==== Proof.KRegion2.lean ====
/-
  The classifier head's kernel, read as a whole array: after its 25 grid points the output array is
  `relu(a + b) · W + bc`.

  Grid point `t` stages rows `2000 t … 2000 t + 1999` of the `[50000, 128]` operand, the `[1, 128]` bias row, the
  `[128, 10]` weight and the `[1, 10]` output bias row; it adds the bias row to every staged row, takes the maximum
  with zero, multiplies into a zero accumulator, adds the output bias row to every row of the product and writes the
  `[2000, 10]` block back as rows `2000 t …` of the result. Block `t` of the result is block `t` of
  `Gcn.addRow (Gcn.mm (Gcn.biasRelu a b) W) bc`; the 25 blocks cover all 50000 rows.
-/
import proofs.«408532_j34540126994447_1_alg».proof.Proof.Gen.KernelIdeal.Frame
import proofs.«408532_j34540126994447_1_alg».proof.Proof.GcnSpec
import Idealize.ShloMosaic.Lib.Pipeline.Value
import Idealize.ShloMosaic.Lib.ValueLayout

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

/-- Every access of the body starts at row 0, column 0 of its staged block. -/
theorem no_offset : (![0, 0] : Fin 2 → Nat) = fun _ => 0 := funext fun a => by fin_cases a <;> rfl

/-- A `[1, 128]` row stretched over 2000 rows, at `(p, k)`: the row's entry `k`. -/
theorem stretch_row128 (x : Vec Ideal S1x128 .f32) (p : Fin 2000) (k : Fin 128) :
    broadcastTo S2000x128 x broadcasts_S1x128_S2000x128 (ix2 p k) = x (ix2 0 k) := by
  refine broadcastTo_apply x broadcasts_S1x128_S2000x128 (ix2 p k) (ix2 0 k) fun a => ?_
  match a with
  | ⟨0, _⟩ => rfl
  | ⟨1, _⟩ => rfl

/-- A `[1, 10]` row stretched over 2000 rows, at `(p, q)`: the row's entry `q`. -/
theorem stretch_row10 (x : Vec Ideal S1x10 .f32) (p : Fin 2000) (q : Fin 10) :
    broadcastTo S2000x10 x broadcasts_S1x10_S2000x10 (ix2 p q) = x (ix2 0 q) := by
  refine broadcastTo_apply x broadcasts_S1x10_S2000x10 (ix2 p q) (ix2 0 q) fun a => ?_
  match a with
  | ⟨0, _⟩ => rfl
  | ⟨1, _⟩ => rfl

/-- The body's value at `(p, q)` of its block, from the four staged blocks: the staged rows plus the bias row,
    the maximum with zero, the product with the weight summed over the 128 columns, plus the output bias row. -/
theorem head_at (x0 : Vec Ideal S2000x128 .f32) (x1 : Vec Ideal S1x128 .f32) (x2 : Vec Ideal S128x10 .f32)
    (x3 : Vec Ideal S1x10 .f32) (p : Fin 2000) (q : Fin 10) :
    k2_pay1 x0 x1 x2 x3 (ix2 p q)
      = (∑ k : Fin 128, max (x0 (ix2 p k) + x1 (ix2 0 k)) Gcn.zeroF * x2 (ix2 k q)) + x3 (ix2 0 q) := by
  unfold k2_pay1
  simp only [shapeCast_self]
  refine (addf_apply _ _ (ix2 p q)).trans ?_
  refine congrArg₂ (· + ·) ?_ (stretch_row10 x3 p q)
  refine (Dot2.matmul_zero_mm_apply dot_S2000x128_S128x10_S2000x10_1_0_0_1_n_n.wf none _ _ p q).trans ?_
  refine Finset.sum_congr rfl fun k _ => ?_
  refine congrArg₂ (· * ·) ?_ rfl
  show max (x0 (ix2 p k) + broadcastTo S2000x128 x1 broadcasts_S1x128_S2000x128 (ix2 p k)) _ = _
  rw [stretch_row128]
  rfl

/-- The block each window is on at each of the 25 grid points: the row operand and the result move one block of
    rows per point, the two bias rows and the weight stay at block `(0, 0)`. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The row operand's block at point `t` is rows `2000 t … 2000 t + 1999` of the `[50000, 128]` array. -/
theorem staged_rows (c : Dev nD) (t : Fin cfg2.N) (p : Fin 2000) (k : Fin 128) (r : Fin 50000)
    (hr : r.val = 2000 * t.val + p.val) :
    (iblk2 V c 0 t : Vec Ideal S2000x128 .f32) (ix2 p k) = (V c main_v51 : S50000x128.Idx → EReal) (ix2 r k) := by
  obtain ⟨e0, e1, -⟩ := block_indices t
  unfold iblk2
  rw [View.read_apply]
  show V c main_v51 _ = V c main_v51 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The bias row's block at every point is the whole `[1, 128]` array. -/
theorem staged_bias (c : Dev nD) (t : Fin cfg2.N) (k : Fin 128) :
    (iblk2 V c 1 t : Vec Ideal S1x128 .f32) (ix2 0 k) = (V c main_v52 : S1x128.Idx → EReal) (ix2 0 k) := by
  obtain ⟨-, -, e0, e1, -⟩ := block_indices t
  unfold iblk2
  rw [View.read_apply]
  show V c main_v52 _ = V c main_v52 _
  congr 1
  funext a
  apply Fin.ext
  match a with
  | ⟨0, _⟩ => show win2_1.index t 0 * 1 + 1 * 0 = 0; rw [e0]
  | ⟨1, _⟩ => show win2_1.index t 1 * 128 + 1 * k.val = k.val; rw [e1]; omega

/-- The weight's block at every point is the whole `[128, 10]` array. -/
theorem staged_weight (c : Dev nD) (t : Fin cfg2.N) (k : Fin 128) (q : Fin 10) :
    (iblk2 V c 2 t : Vec Ideal S128x10 .f32) (ix2 k q) = (V c main_arg7 : S128x10.Idx → EReal) (ix2 k q) := by
  obtain ⟨-, -, -, -, e0, e1, -⟩ := block_indices t
  unfold iblk2
  rw [View.read_apply]
  show V c main_arg7 _ = V c main_arg7 _
  congr 1
  funext a
  apply Fin.ext
  match a with
  | ⟨0, _⟩ => show win2_2.index t 0 * 128 + 1 * k.val = k.val; rw [e0]; omega
  | ⟨1, _⟩ => show win2_2.index t 1 * 10 + 1 * q.val = q.val; rw [e1]; omega

/-- The output bias row's block at every point is the whole `[1, 10]` array. -/
theorem staged_out_bias (c : Dev nD) (t : Fin cfg2.N) (q : Fin 10) :
    (iblk2 V c 3 t : Vec Ideal S1x10 .f32) (ix2 0 q) = (V c main_v53 : S1x10.Idx → EReal) (ix2 0 q) := by
  obtain ⟨-, -, -, -, -, -, e0, e1, -⟩ := block_indices t
  unfold iblk2
  rw [View.read_apply]
  show V c main_v53 _ = V c main_v53 _
  congr 1
  funext a
  apply Fin.ext
  match a with
  | ⟨0, _⟩ => show win2_3.index t 0 * 1 + 1 * 0 = 0; rw [e0]
  | ⟨1, _⟩ => show win2_3.index t 1 * 10 + 1 * q.val = q.val; rw [e1]; omega

/-- The body's value at `(p, q)` of its block is the whole-array head at `(r, q)`, once each staged entry it reads
    is the array entry of row `r`: the row operand's row `p` is row `r` of `A`, the other three blocks are `b`, `W`, `bc`. -/
theorem head_block (A : S50000x128.Idx → EReal) (b : S1x128.Idx → EReal) (W : S128x10.Idx → EReal) (bc : S1x10.Idx → EReal)
    (x0 : Vec Ideal S2000x128 .f32) (x1 : Vec Ideal S1x128 .f32) (x2 : Vec Ideal S128x10 .f32) (x3 : Vec Ideal S1x10 .f32)
    (p : Fin 2000) (q : Fin 10) (r : Fin 50000)
    (h0 : ∀ k : Fin 128, x0 (ix2 p k) = A (ix2 r k)) (h1 : ∀ k : Fin 128, x1 (ix2 0 k) = b (ix2 0 k))
    (h2 : ∀ k : Fin 128, x2 (ix2 k q) = W (ix2 k q)) (h3 : x3 (ix2 0 q) = bc (ix2 0 q)) :
    k2_pay1 x0 x1 x2 x3 (ix2 p q)
      = Gcn.addRow (M := 50000) (N := 10) (Gcn.mm (M := 50000) (K := 128) (N := 10) (Gcn.biasRelu (M := 50000) (K := 128) A b) W) bc (ix2 r q) := by
  rw [head_at, Gcn.addRow_apply, Gcn.mm_apply, h3]
  refine congrArg (· + bc (ix2 0 q)) (Finset.sum_congr rfl fun k _ => ?_)
  rw [Gcn.biasRelu_apply, h0, h1, h2]

/-- What point `t` writes back is block `t` (rows `2000 t … 2000 t + 1999`) of the head of the four arrays as the
    region finds them. -/
theorem block_written (c : Dev nD) (t : Fin cfg2.N) :
    (dat2 V c).flushed 4 t = ((cfg2.win 4).blk t).view.read (Elt Ideal)
      (Gcn.addRow (M := 50000) (N := 10)
        (Gcn.mm (M := 50000) (K := 128) (N := 10) (Gcn.biasRelu (M := 50000) (K := 128) (V c main_v51) (V c main_v52)) (V c main_arg7))
        (V c main_v53)) := by
  show (cfg2.win 4).cut (grid2.coords t) ((dat2 V c).after 4 t) = _
  rw [after2_4]
  unfold out2_4
  rw [View.canon_unit_zero no_offset]
  simp only [View.ld_unit_zero (S := S2000x128) no_offset, View.ld_unit_zero (S := S1x128) no_offset,
    View.ld_unit_zero (S := S128x10) no_offset, View.ld_unit_zero (S := S1x10) no_offset]
  funext j
  obtain ⟨p, q, rfl⟩ : ∃ (p : Fin 2000) (q : Fin 10), j = ix2 p q := ⟨j 0, j 1, eq_ix2 j⟩
  obtain ⟨-, -, -, -, -, -, -, -, e0, e1⟩ := block_indices t
  have ht : t.val < 25 := t.isLt
  have hp : p.val < 2000 := p.isLt
  have hr : 2000 * t.val + p.val < 50000 := by omega
  rw [View.read_apply]
  refine (head_block (V c main_v51) (V c main_v52) (V c main_arg7) (V c main_v53)
    (iblk2 V c 0 t) (iblk2 V c 1 t) (iblk2 V c 2 t) (iblk2 V c 3 t) p q ⟨2000 * t.val + p.val, hr⟩
    (fun k => staged_rows V c t p k ⟨2000 * t.val + p.val, hr⟩ rfl) (fun k => staged_bias V c t k)
    (fun k => staged_weight V c t k q) (staged_out_bias V c t q)).trans ?_
  show _ = Gcn.addRow (M := 50000) (N := 10) _ _ (((cfg2.win 4).blk t).view.emb (ix2 p q))
  congr 1
  funext a
  apply Fin.ext
  match a with
  | ⟨0, _⟩ => show 2000 * t.val + p.val = win2_4.index t 0 * 2000 + 1 * p.val; rw [e0]; omega
  | ⟨1, _⟩ => show q.val = win2_4.index t 1 * 10 + 1 * q.val; rw [e1]; omega

/-- A row of the result is in point `t`'s block iff it is one of rows `2000 t … 2000 t + 1999` (and its column one
    of the 10). -/
theorem mem_block (t : Fin cfg2.N) (i : S50000x10.Idx) :
    i ∈ ((cfg2.win 4).blk t).view.set ↔ ∀ a : Fin 2, win2_4.index t a * S2000x10.size a ≤ (i a).val ∧ (i a).val < win2_4.index t a * S2000x10.size a + S2000x10.size a := by
  show i ∈ ((View.whole main_v54).slice (win2_4.rect t)).set ↔ _
  rw [View.set_slice_whole, Rect.mem_set_unit]
  exact Iff.rfl

/-- Every entry of the result is written back by some point: row `r` by point `r / 2000`. -/
theorem rows_covered (i : S50000x10.Idx) :
    ∃ t : Fin cfg2.N, (cfg2.win 4).flush t = true ∧ i ∈ ((cfg2.win 4).blk t).view.set := by
  have hi0 : (i 0).val < 50000 := (i 0).isLt
  have hi1 : (i 1).val < 10 := (i 1).isLt
  have hq : (i 0).val / 2000 < 25 := by omega
  refine ⟨⟨(i 0).val / 2000, hq⟩, flush2_4 _, ?_⟩
  obtain ⟨-, -, -, -, -, -, -, -, e0, e1⟩ := block_indices ⟨(i 0).val / 2000, hq⟩
  rw [mem_block]
  intro a
  match a with
  | ⟨0, _⟩ =>
    show win2_4.index ⟨(i 0).val / 2000, hq⟩ (0 : Fin 2) * 2000 ≤ (i 0).val ∧ (i 0).val < win2_4.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, hq⟩ (1 : Fin 2) * 10 ≤ (i 1).val ∧ (i 1).val < win2_4.index ⟨(i 0).val / 2000, hq⟩ (1 : Fin 2) * 10 + 10
    rw [e1]; omega

/-- Region 2's output array after its last grid point. -/
theorem region2_array (c : Dev nD) :
    (dat2 V c).arrAt 4 cfg2.N
      = Gcn.addRow (M := 50000) (N := 10)
          (Gcn.mm (M := 50000) (K := 128) (N := 10) (Gcn.biasRelu (M := 50000) (K := 128) (V c main_v51) (V c main_v52)) (V c main_arg7))
          (V c main_v53) :=
  (dat2 V c).arrAt_eq_of_cover 4 _ (fun t _ => block_written V c t) rows_covered

end Cert.KernelIdeal.Hand

end
-- ==== Proof.KHostDefs.lean ====
/-
  The host side of the kernel program, as functions of the argument arrays.

  The program's @main computes, outside its three dense kernels, the graph's normalisation and two rounds of
  message passing. From the edge list `ei : [2, E]` and the edge weights `ew : [E]` (E = 800000 edges, 50000
  nodes): the source and destination node of every message, the `E` edges followed by one self loop per node
  (`srcOf`, `dstOf`); the message weights, the edge weights followed by ones (`wOf`); each node's weighted in-degree
  (`degOf`) and its inverse square root where the degree is positive, zero elsewhere (`dinvOf`); the coefficient of
  each message, `dinv[src] * w * dinv[dst]` (`normOf`), an index read NumPy's way (a negative index counted from the
  end: `wrapOf`). A round of message passing takes the rows of a node-feature array at the messages' sources
  (`takeFill`: a gather that writes a fill value into the rows whose index is out of range), scales row `t` by
  coefficient `t` and adds it into row `dst[t]` of an array of zeros (`aggOf`).
-/
import proofs.«408532_j34540126994447_1_alg».proof.Proof.Gen.KernelIdeal

noncomputable section

namespace Cert.KernelIdeal.Hand

open Cert.KernelIdeal Cert.KernelIdeal.Gen Idealize.ShloMosaic

variable {F : FTy → Type} [FloatOps F]

/-- The messages' source nodes: row 0 of the edge list, then every node once. -/
def srcOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The messages' destination nodes: row 1 of the edge list, then every node once. -/
def dstOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- The messages' weights: the edge weights, then a one per self loop. -/
def wOf (ew : FVec F S800000 .f32) : FVec F S850000 .f32 :=
  concatenate S850000 0 [⟨S800000, ew⟩, ⟨S50000, broadcastInDim S50000 ![] bcast_S_S50000 (constant S_ .f32 0x3F800000#32)⟩] concatenates_S800000_S50000_S850000_d0

/-- A vector of per-message words as a column. -/
abbrev colI (v : IVec S850000 32) : IVec S850000x1 32 := broadcastInDim S850000x1 ![0] bcast_S850000_S850000x1_0 v

/-- An index read NumPy's way: a negative index counts from the end of the 50000 rows. -/
def wrapOf (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- Each node's weighted in-degree: the messages' weights added up by destination. -/
def degOf (ei : IVec S2x800000 32) (ew : FVec F S800000 .f32) : FVec F S50000 .f32 :=
  Host.scatterAdd scatter_S50000_S850000x1_S850000_n_0_0_1 (broadcastInDim S50000 ![] bcast_S_S50000 (constant S_ .f32 0x00000000#32)) (colI (dstOf ei)) (wOf ew)

/-- `deg^(-1/2)` where the degree is positive, zero elsewhere. -/
def dinvOf (ei : IVec S2x800000 32) (ew : FVec F S800000 .f32) : FVec F S50000 .f32 :=
  select (cmpf .ogt (degOf ei ew) (broadcastInDim S50000 ![] bcast_S_S50000 (constant S_ .f32 0x00000000#32)))
    (Host.rsqrt (select (cmpf .ogt (degOf ei ew) (broadcastInDim S50000 ![] bcast_S_S50000 (constant S_ .f32 0x00000000#32))) (degOf ei ew)
      (broadcastInDim S50000 ![] bcast_S_S50000 (constant S_ .f32 0x3F800000#32))))
    (broadcastInDim S50000 ![] bcast_S_S50000 (constant S_ .f32 0x00000000#32))

/-- The coefficient of each message: `dinv[src] * w * dinv[dst]`. -/
def normOf (ei : IVec S2x800000 32) (ew : FVec F S800000 .f32) : FVec F S850000 .f32 :=
  mulf (mulf (Host.gather gather_S50000_S850000x1_S850000_n_0_n_n_0_1_1 (dinvOf ei ew) (colI (wrapOf (srcOf ei)))) (wOf ew))
    (Host.gather gather_S50000_S850000x1_S850000_n_0_n_n_0_1_1 (dinvOf ei ew) (colI (wrapOf (dstOf ei))))

/-- The rows of a node-feature array at the messages' sources, by a gather that fills with a fill value the rows whose
    (wrapped) index is outside `[0, 49999]`. -/
def takeFill (h : FVec F S50000x128 .f32) (s : IVec S850000 32) : FVec F S850000x128 .f32 :=
  select
    (broadcastInDim S850000x128 ![0] bcast_S850000_S850000x128_0
      (Host.reduce IntOp.andi
        (andi (cmpi .sge (colI (wrapOf s)) (broadcastInDim S850000x1 ![] bcast_S_S850000x1 (constantI S_ 32 0#32)))
          (cmpi .sle (colI (wrapOf s)) (broadcastInDim S850000x1 ![0, 1] bcast_S1x1_S850000x1_0_1 (broadcastInDim S1x1 ![1] bcast_S1_S1x1_1 (constantI S1 32 49999#32)))))
        (constantI S_ 1 1#1) reducesTo_S850000x1_S850000_d1 h_S_))
    (Host.gather gather_S50000x128_S850000x1_S850000x128_1_0_n_n_0_1_1128 h (colI (wrapOf s)))
    (broadcastInDim S850000x128 ![] bcast_S_S850000x128 (constant S_ .f32 0x7FC00000#32))

/-- One round of message passing: row `t` of `rows` scaled by coefficient `t`, added into row `dst[t]` of zeros. -/
def aggOf (rows : FVec F S850000x128 .f32) (d : IVec S850000 32) (n : FVec F S850000 .f32) : FVec F S50000x128 .f32 :=
  Host.scatterAdd scatter_S50000x128_S850000x1_S850000x128_1_0_0_1
    (broadcastInDim S50000x128 ![] bcast_S_S50000x128 (constant S_ .f32 0x00000000#32))
    (colI d)
    (mulf rows (broadcastInDim S850000x128 ![0, 1] bcast_S850000x1_S850000x128_0_1 (broadcastInDim S850000x1 ![0] bcast_S850000_S850000x1_0 n)))

end Cert.KernelIdeal.Hand

end
-- ==== Proof.KStretch0.lean ====
/-
  The normalisation of the graph, read one stretch of host operations at a time.

  Before the first dense kernel @main runs five stretches. The first joins the edge list's rows to the node numbering
  (the messages' sources and destinations), joins the edge weights to a one per self loop, and scatters the weights by
  destination into zeros: the weighted in-degree, and where it is positive. The second (an outlined selection)
  replaces the non-positive degrees by one; the third takes the inverse square root and tests positivity again; the
  fourth (the same outlined selection) puts zero where the degree is not positive; the fifth gathers these inverse
  roots at each message's two ends, wrapped NumPy's way, and multiplies them with the message's weight. Each stretch
  is read from arbitrary contents `V`: a buffer it writes holds its operation's function of what the operands held,
  a buffer it does not write holds what it held. Read in sequence they give the messages' coefficients as the one
  function `normOf` of the edge list and the edge weights. An outlined function's operations move each value to its
  buffer's type and back along an equation of types that holds by computation, so there the two sides are one term
  up to computation.
-/
import proofs.«408532_j34540126994447_1_alg».proof.Proof.Gen.KernelIdeal.Frame
import proofs.«408532_j34540126994447_1_alg».proof.Proof.KHostDefs
import Idealize.ShloMosaic.Lib.StableHlo.Run
import Idealize.ShloMosaic.Lib.Tactic

set_option maxRecDepth 16384
-- one declaration at a time: each reads a list of operations at production extents
set_option Elab.async false

noncomputable section

open Idealize.ShloMosaic Idealize.ShloMosaic.TcCoe Idealize.SL.Sem Idealize.ShloMosaic.Tactic

namespace Cert.KernelIdeal.Hand

open Cert.KernelIdeal Cert.KernelIdeal.Gen

variable {F : FTy → Type} [FloatOps F] (V : Valuation τ sig (Elt F))

/-! ## The first stretch: sources, destinations, weights, degrees -/

theorem s0_src : StableHlo.after hostOps0 V (Proc.devRef .tc main_v3) = srcOf (V (Proc.devRef .tc main_arg1)) := by
  show StableHlo.after hostOps0 V (Proc.devRef .tc main_v3) = _
  after_results
  all_goals rfl

theorem s0_dst : StableHlo.after hostOps0 V (Proc.devRef .tc main_v6) = dstOf (V (Proc.devRef .tc main_arg1)) := by
  show StableHlo.after hostOps0 V (Proc.devRef .tc main_v6) = _
  after_results
  all_goals rfl

theorem s0_w : StableHlo.after hostOps0 V (Proc.devRef .tc main_v8) = wOf (F := F) (V (Proc.devRef .tc main_arg2)) := by
  show StableHlo.after hostOps0 V (Proc.devRef .tc main_v8) = _
  after_results
  all_goals rfl

theorem s0_deg : StableHlo.after hostOps0 V (Proc.devRef .tc main_v11) = (degOf (F := F) (V (Proc.devRef .tc main_arg1)) (V (Proc.devRef .tc main_arg2))) := by
  show StableHlo.after hostOps0 V (Proc.devRef .tc main_v11) = _
  after_results
  all_goals rfl

theorem s0_pos : StableHlo.after hostOps0 V (Proc.devRef .tc main_v13) = cmpf .ogt (degOf (F := F) (V (Proc.devRef .tc main_arg1)) (V (Proc.devRef .tc main_arg2))) (broadcastInDim S50000 ![] bcast_S_S50000 (constant S_ .f32 0x00000000#32)) := by
  show StableHlo.after hostOps0 V (Proc.devRef .tc main_v13) = _
  after_results
  all_goals rfl

theorem s0_one : StableHlo.after hostOps0 V (Proc.devRef .tc main_cst_2) = constant (F := F) S_ .f32 0x3F800000#32 := by
  show StableHlo.after hostOps0 V (Proc.devRef .tc main_cst_2) = _
  after_results
  all_goals rfl

/-! ## The second stretch: the degree, or one where it is not positive -/

theorem s1_safe : StableHlo.after hostOps0_1 V (Proc.devRef .tc main_v14) = select (V (Proc.devRef .tc main_v13)) (V (Proc.devRef .tc main_v11)) (broadcastInDim S50000 ![] bcast_S_S50000 (V (Proc.devRef .tc main_cst_2))) := by
  show StableHlo.after hostOps0_1 V (Proc.devRef .tc main_v14) = _
  after_results
  sl_kernel_rfl

theorem s1_keep_v3 : StableHlo.after hostOps0_1 V (Proc.devRef .tc main_v3) = V (Proc.devRef .tc main_v3) := by
  show StableHlo.after hostOps0_1 V (Proc.devRef .tc main_v3) = _
  after_results_simp

theorem s1_keep_v6 : StableHlo.after hostOps0_1 V (Proc.devRef .tc main_v6) = V (Proc.devRef .tc main_v6) := by
  show StableHlo.after hostOps0_1 V (Proc.devRef .tc main_v6) = _
  after_results_simp

theorem s1_keep_v8 : StableHlo.after hostOps0_1 V (Proc.devRef .tc main_v8) = V (Proc.devRef .tc main_v8) := by
  show StableHlo.after hostOps0_1 V (Proc.devRef .tc main_v8) = _
  after_results_simp

theorem s1_keep_v11 : StableHlo.after hostOps0_1 V (Proc.devRef .tc main_v11) = V (Proc.devRef .tc main_v11) := by
  show StableHlo.after hostOps0_1 V (Proc.devRef .tc main_v11) = _
  after_results_simp

/-! ## The third stretch: the inverse square root, and positivity again -/

theorem s2_pos : StableHlo.after hostOps0_2 V (Proc.devRef .tc main_v16) = cmpf .ogt (V (Proc.devRef .tc main_v11)) (broadcastInDim S50000 ![] bcast_S_S50000 (constant S_ .f32 0x00000000#32)) := by
  show StableHlo.after hostOps0_2 V (Proc.devRef .tc main_v16) = _
  after_results
  all_goals rfl

theorem s2_rsqrt : StableHlo.after hostOps0_2 V (Proc.devRef .tc main_v17) = Host.rsqrt (V (Proc.devRef .tc main_v14)) := by
  show StableHlo.after hostOps0_2 V (Proc.devRef .tc main_v17) = _
  after_results
  all_goals rfl

theorem s2_zero : StableHlo.after hostOps0_2 V (Proc.devRef .tc main_cst_4) = constant (F := F) S_ .f32 0x00000000#32 := by
  show StableHlo.after hostOps0_2 V (Proc.devRef .tc main_cst_4) = _
  after_results
  all_goals rfl

theorem s2_keep_v3 : StableHlo.after hostOps0_2 V (Proc.devRef .tc main_v3) = V (Proc.devRef .tc main_v3) := by
  show StableHlo.after hostOps0_2 V (Proc.devRef .tc main_v3) = _
  after_results_simp

theorem s2_keep_v6 : StableHlo.after hostOps0_2 V (Proc.devRef .tc main_v6) = V (Proc.devRef .tc main_v6) := by
  show StableHlo.after hostOps0_2 V (Proc.devRef .tc main_v6) = _
  after_results_simp

theorem s2_keep_v8 : StableHlo.after hostOps0_2 V (Proc.devRef .tc main_v8) = V (Proc.devRef .tc main_v8) := by
  show StableHlo.after hostOps0_2 V (Proc.devRef .tc main_v8) = _
  after_results_simp

/-! ## The fourth stretch: zero where the degree is not positive -/

theorem s3_dinv : StableHlo.after hostOps0_3 V (Proc.devRef .tc main_v18) = select (V (Proc.devRef .tc main_v16)) (V (Proc.devRef .tc main_v17)) (broadcastInDim S50000 ![] bcast_S_S50000 (V (Proc.devRef .tc main_cst_4))) := by
  show StableHlo.after hostOps0_3 V (Proc.devRef .tc main_v18) = _
  after_results
  sl_kernel_rfl

theorem s3_keep_v3 : StableHlo.after hostOps0_3 V (Proc.devRef .tc main_v3) = V (Proc.devRef .tc main_v3) := by
  show StableHlo.after hostOps0_3 V (Proc.devRef .tc main_v3) = _
  after_results_simp

theorem s3_keep_v6 : StableHlo.after hostOps0_3 V (Proc.devRef .tc main_v6) = V (Proc.devRef .tc main_v6) := by
  show StableHlo.after hostOps0_3 V (Proc.devRef .tc main_v6) = _
  after_results_simp

theorem s3_keep_v8 : StableHlo.after hostOps0_3 V (Proc.devRef .tc main_v8) = V (Proc.devRef .tc main_v8) := by
  show StableHlo.after hostOps0_3 V (Proc.devRef .tc main_v8) = _
  after_results_simp

/-! ## The fifth stretch: the coefficients -/

theorem s4_norm : StableHlo.after hostOps0_4 V (Proc.devRef .tc main_v34) = mulf (mulf (Host.gather gather_S50000_S850000x1_S850000_n_0_n_n_0_1_1 (V (Proc.devRef .tc main_v18)) (colI (wrapOf (V (Proc.devRef .tc main_v3))))) (V (Proc.devRef .tc main_v8)))
      (Host.gather gather_S50000_S850000x1_S850000_n_0_n_n_0_1_1 (V (Proc.devRef .tc main_v18)) (colI (wrapOf (V (Proc.devRef .tc main_v6))))) := by
  show StableHlo.after hostOps0_4 V (Proc.devRef .tc main_v34) = _
  after_results_simp
  all_goals rfl

/-! ## The five in sequence -/

/-- The coefficients after the five stretches: `dinv[src] * w * dinv[dst]` of the edge list and the edge weights. -/
theorem run0_v34 : (StableHlo.after hostOps0_4 (StableHlo.after hostOps0_3 (StableHlo.after hostOps0_2 (StableHlo.after hostOps0_1 (StableHlo.after hostOps0 V))))) (Proc.devRef .tc main_v34)
    = normOf (F := F) (V (Proc.devRef .tc main_arg1)) (V (Proc.devRef .tc main_arg2)) := by
  rw [s4_norm]
  rw [s3_dinv, s3_keep_v3, s3_keep_v6, s3_keep_v8]
  rw [s2_pos, s2_rsqrt, s2_zero, s2_keep_v3, s2_keep_v6, s2_keep_v8]
  rw [s1_safe, s1_keep_v11, s1_keep_v3, s1_keep_v6, s1_keep_v8]
  rw [s0_pos, s0_deg, s0_one, s0_src, s0_dst, s0_w]
  rfl

end Cert.KernelIdeal.Hand

end
-- ==== Proof.KStretch1.lean ====
/-
  The first round of message passing, read one stretch of host operations at a time.

  Between two dense kernels @main runs two stretches. The first (an outlined function) wraps the messages' sources
  NumPy's way, tests each wrapped index against `[0, 49999]`, gathers the previous kernel's output rows at the
  wrapped indices and puts a fill value in the rows whose test fails: `takeFill` of the previous output and the
  sources. The second spreads the messages' coefficients over the 128 features, scales the gathered rows by them and
  adds them up by destination into zeros: `aggOf` of the gathered rows, the destinations and the coefficients. Each
  stretch is read from arbitrary contents `V`; the sources, destinations and coefficients are written by neither.
  An outlined function's operations move each value to its buffer's type and back along an equation of types that
  holds by computation, so there the two sides are one term up to computation.
-/
import proofs.«408532_j34540126994447_1_alg».proof.Proof.Gen.KernelIdeal.Frame
import proofs.«408532_j34540126994447_1_alg».proof.Proof.KHostDefs
import Idealize.ShloMosaic.Lib.StableHlo.Run
import Idealize.ShloMosaic.Lib.Tactic

set_option maxRecDepth 16384
-- one declaration at a time: each reads a list of operations at production extents
set_option Elab.async false

noncomputable section

open Idealize.ShloMosaic Idealize.ShloMosaic.TcCoe Idealize.SL.Sem Idealize.ShloMosaic.Tactic

namespace Cert.KernelIdeal.Hand

open Cert.KernelIdeal Cert.KernelIdeal.Gen

variable {F : FTy → Type} [FloatOps F] (V : Valuation τ sig (Elt F))

/-! ## The first round -/

set_option maxHeartbeats 2000000 in
theorem t1_take : StableHlo.after hostOps1 V (Proc.devRef .tc main_v36) = takeFill (F := F) (V (Proc.devRef .tc main_v35)) (V (Proc.devRef .tc main_v3)) := by
  show StableHlo.after hostOps1 V (Proc.devRef .tc main_v36) = _
  after_results
  sl_kernel_rfl

theorem t1_agg : StableHlo.after hostOps1_1 V (Proc.devRef .tc main_v42) = aggOf (F := F) (V (Proc.devRef .tc main_v36)) (V (Proc.devRef .tc main_v6)) (V (Proc.devRef .tc main_v34)) := by
  show StableHlo.after hostOps1_1 V (Proc.devRef .tc main_v42) = _
  after_results
  all_goals rfl

theorem t1_keep_v6 : StableHlo.after hostOps1 V (Proc.devRef .tc main_v6) = V (Proc.devRef .tc main_v6) := by
  show StableHlo.after hostOps1 V (Proc.devRef .tc main_v6) = _
  after_results_simp

theorem t1_keep_v34 : StableHlo.after hostOps1 V (Proc.devRef .tc main_v34) = V (Proc.devRef .tc main_v34) := by
  show StableHlo.after hostOps1 V (Proc.devRef .tc main_v34) = _
  after_results_simp

/-- The first round after its two stretches. -/
theorem run1_v42 : (StableHlo.after hostOps1_1 (StableHlo.after hostOps1 V)) (Proc.devRef .tc main_v42)
    = aggOf (F := F) (takeFill (F := F) (V (Proc.devRef .tc main_v35)) (V (Proc.devRef .tc main_v3))) (V (Proc.devRef .tc main_v6)) (V (Proc.devRef .tc main_v34)) := by
  rw [t1_agg, t1_take, t1_keep_v6, t1_keep_v34]

end Cert.KernelIdeal.Hand

end
-- ==== Proof.KStretch2.lean ====
/-
  The second round of message passing, read one stretch of host operations at a time (as the first round, over the second kernel's output).

  Between two dense kernels @main runs two stretches. The first (an outlined function) wraps the messages' sources
  NumPy's way, tests each wrapped index against `[0, 49999]`, gathers the previous kernel's output rows at the
  wrapped indices and puts a fill value in the rows whose test fails: `takeFill` of the previous output and the
  sources. The second spreads the messages' coefficients over the 128 features, scales the gathered rows by them and
  adds them up by destination into zeros: `aggOf` of the gathered rows, the destinations and the coefficients. Each
  stretch is read from arbitrary contents `V`; the sources, destinations and coefficients are written by neither.
  An outlined function's operations move each value to its buffer's type and back along an equation of types that
  holds by computation, so there the two sides are one term up to computation.
-/
import proofs.«408532_j34540126994447_1_alg».proof.Proof.Gen.KernelIdeal.Frame
import proofs.«408532_j34540126994447_1_alg».proof.Proof.KHostDefs
import proofs.«408532_j34540126994447_1_alg».proof.Proof.KStretch1
import Idealize.ShloMosaic.Lib.StableHlo.Run
import Idealize.ShloMosaic.Lib.Tactic

set_option maxRecDepth 16384
-- one declaration at a time: each reads a list of operations at production extents
set_option Elab.async false

noncomputable section

open Idealize.ShloMosaic Idealize.ShloMosaic.TcCoe Idealize.SL.Sem Idealize.ShloMosaic.Tactic

namespace Cert.KernelIdeal.Hand

open Cert.KernelIdeal Cert.KernelIdeal.Gen

variable {F : FTy → Type} [FloatOps F] (V : Valuation τ sig (Elt F))

/-! ## The second round -/

set_option maxHeartbeats 2000000 in
theorem t2_take : StableHlo.after hostOps2 V (Proc.devRef .tc main_v45) = takeFill (F := F) (V (Proc.devRef .tc main_v44)) (V (Proc.devRef .tc main_v3)) := by
  show StableHlo.after hostOps2 V (Proc.devRef .tc main_v45) = _
  after_results
  sl_kernel_rfl

theorem t2_agg : StableHlo.after hostOps2_1 V (Proc.devRef .tc main_v51) = aggOf (F := F) (V (Proc.devRef .tc main_v45)) (V (Proc.devRef .tc main_v6)) (V (Proc.devRef .tc main_v34)) := by
  show StableHlo.after hostOps2_1 V (Proc.devRef .tc main_v51) = _
  after_results
  all_goals rfl

theorem t2_keep_v6 : StableHlo.after hostOps2 V (Proc.devRef .tc main_v6) = V (Proc.devRef .tc main_v6) := by
  show StableHlo.after hostOps2 V (Proc.devRef .tc main_v6) = _
  after_results_simp

theorem t2_keep_v34 : StableHlo.after hostOps2 V (Proc.devRef .tc main_v34) = V (Proc.devRef .tc main_v34) := by
  show StableHlo.after hostOps2 V (Proc.devRef .tc main_v34) = _
  after_results_simp

/-- The second round after its two stretches. -/
theorem run2_v51 : (StableHlo.after hostOps2_1 (StableHlo.after hostOps2 V)) (Proc.devRef .tc main_v51)
    = aggOf (F := F) (takeFill (F := F) (V (Proc.devRef .tc main_v44)) (V (Proc.devRef .tc main_v3))) (V (Proc.devRef .tc main_v6)) (V (Proc.devRef .tc main_v34)) := by
  rw [t2_agg, t2_take, t2_keep_v6, t2_keep_v34]

end Cert.KernelIdeal.Hand

end
-- ==== Proof.KHost.lean ====
/-
  The kernel program's host operations, read: what each array a dense kernel stages holds when its region is
  entered, as a function of the argument arrays and of the previous kernel's output.

  @main runs five stretches of host operations, the first kernel, two stretches, the second kernel, two stretches,
  the third kernel. A stretch rewrites the buffers its operations write and leaves the rest; a kernel region rewrites
  its output array and leaves the rest. So each staged array is read back through the stretches: the messages'
  sources, destinations and coefficients are computed before the first kernel and never written again; each round
  of message passing reads the previous kernel's output; the biases are reshaped to rows just before the kernel
  that adds them; the weights and the node features are the argument arrays as launched.
-/
import proofs.«408532_j34540126994447_1_alg».proof.Proof.Gen.KernelIdeal.Frame
import proofs.«408532_j34540126994447_1_alg».proof.Proof.KHostDefs
import proofs.«408532_j34540126994447_1_alg».proof.Proof.KStretch0
import proofs.«408532_j34540126994447_1_alg».proof.Proof.KStretch1
import proofs.«408532_j34540126994447_1_alg».proof.Proof.KStretch2
import Idealize.ShloMosaic.Lib.StableHlo.Run
import Idealize.ShloMosaic.PureOps.Ideal

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- A join of two arrays is a function of the two arrays: it may be rewritten in either. -/
theorem concatenate_pair_congr {α : Type} (t : Shape) (a : Fin t.rank) (s₁ s₂ : Shape)
    {x x' : s₁.Idx → α} {y y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl
attribute [local congr] concatenate_pair_congr

/-! ## The stretches, from any contents

A stretch of host operations is a list of assignments: what a buffer holds after the list is the last assignment to it,
read at what its operands held, and a buffer no assignment names holds what it held. The lemmas below read the buffers
the kernels stage, after the five stretches before the first kernel, the two before the second and the two before the
third, from arbitrary contents `V`; the coefficients and the two rounds of message passing are read stretch by stretch
in the two modules this one builds on. -/

/-! ### The short reads and the buffers a stretch leaves alone -/

section Short

variable (V : Valuation τ sig (Elt Ideal))

/-- The sources: row 0 of the edge list joined to the node numbering. -/
theorem run0_v3 : (StableHlo.after hostOps0_4 (StableHlo.after hostOps0_3 (StableHlo.after hostOps0_2 (StableHlo.after hostOps0_1 (StableHlo.after hostOps0 V))))) (Proc.devRef .tc main_v3) = srcOf (V (Proc.devRef .tc main_arg1)) := by
  after_results_simp
  rfl
/-- The destinations: row 1 of the edge list joined to the node numbering. -/
theorem run0_v6 : (StableHlo.after hostOps0_4 (StableHlo.after hostOps0_3 (StableHlo.after hostOps0_2 (StableHlo.after hostOps0_1 (StableHlo.after hostOps0 V))))) (Proc.devRef .tc main_v6) = dstOf (V (Proc.devRef .tc main_arg1)) := by
  after_results_simp
  rfl
theorem run0_arg0 : (StableHlo.after hostOps0_4 (StableHlo.after hostOps0_3 (StableHlo.after hostOps0_2 (StableHlo.after hostOps0_1 (StableHlo.after hostOps0 V))))) (Proc.devRef .tc main_arg0) = V (Proc.devRef .tc main_arg0) := by
  after_results_simp
theorem run0_arg3 : (StableHlo.after hostOps0_4 (StableHlo.after hostOps0_3 (StableHlo.after hostOps0_2 (StableHlo.after hostOps0_1 (StableHlo.after hostOps0 V))))) (Proc.devRef .tc main_arg3) = V (Proc.devRef .tc main_arg3) := by
  after_results_simp
theorem run0_arg4 : (StableHlo.after hostOps0_4 (StableHlo.after hostOps0_3 (StableHlo.after hostOps0_2 (StableHlo.after hostOps0_1 (StableHlo.after hostOps0 V))))) (Proc.devRef .tc main_arg4) = V (Proc.devRef .tc main_arg4) := by
  after_results_simp
theorem run0_arg5 : (StableHlo.after hostOps0_4 (StableHlo.after hostOps0_3 (StableHlo.after hostOps0_2 (StableHlo.after hostOps0_1 (StableHlo.after hostOps0 V))))) (Proc.devRef .tc main_arg5) = V (Proc.devRef .tc main_arg5) := by
  after_results_simp
theorem run0_arg6 : (StableHlo.after hostOps0_4 (StableHlo.after hostOps0_3 (StableHlo.after hostOps0_2 (StableHlo.after hostOps0_1 (StableHlo.after hostOps0 V))))) (Proc.devRef .tc main_arg6) = V (Proc.devRef .tc main_arg6) := by
  after_results_simp
theorem run0_arg7 : (StableHlo.after hostOps0_4 (StableHlo.after hostOps0_3 (StableHlo.after hostOps0_2 (StableHlo.after hostOps0_1 (StableHlo.after hostOps0 V))))) (Proc.devRef .tc main_arg7) = V (Proc.devRef .tc main_arg7) := by
  after_results_simp
theorem run0_arg8 : (StableHlo.after hostOps0_4 (StableHlo.after hostOps0_3 (StableHlo.after hostOps0_2 (StableHlo.after hostOps0_1 (StableHlo.after hostOps0 V))))) (Proc.devRef .tc main_arg8) = V (Proc.devRef .tc main_arg8) := by
  after_results_simp
/-- The first bias as a row. -/
theorem run1_v43 : (StableHlo.after hostOps1_1 (StableHlo.after hostOps1 V)) (Proc.devRef .tc main_v43) = shapeCast S1x128 (V (Proc.devRef .tc main_arg4)) shapeCasts_S128_S1x128 := by
  after_results_simp
  rfl
theorem run1_v3 : (StableHlo.after hostOps1_1 (StableHlo.after hostOps1 V)) (Proc.devRef .tc main_v3) = V (Proc.devRef .tc main_v3) := by
  after_results_simp
theorem run1_v6 : (StableHlo.after hostOps1_1 (StableHlo.after hostOps1 V)) (Proc.devRef .tc main_v6) = V (Proc.devRef .tc main_v6) := by
  after_results_simp
theorem run1_v34 : (StableHlo.after hostOps1_1 (StableHlo.after hostOps1 V)) (Proc.devRef .tc main_v34) = V (Proc.devRef .tc main_v34) := by
  after_results_simp
theorem run1_arg5 : (StableHlo.after hostOps1_1 (StableHlo.after hostOps1 V)) (Proc.devRef .tc main_arg5) = V (Proc.devRef .tc main_arg5) := by
  after_results_simp
theorem run1_arg6 : (StableHlo.after hostOps1_1 (StableHlo.after hostOps1 V)) (Proc.devRef .tc main_arg6) = V (Proc.devRef .tc main_arg6) := by
  after_results_simp
theorem run1_arg7 : (StableHlo.after hostOps1_1 (StableHlo.after hostOps1 V)) (Proc.devRef .tc main_arg7) = V (Proc.devRef .tc main_arg7) := by
  after_results_simp
theorem run1_arg8 : (StableHlo.after hostOps1_1 (StableHlo.after hostOps1 V)) (Proc.devRef .tc main_arg8) = V (Proc.devRef .tc main_arg8) := by
  after_results_simp
/-- The second bias as a row. -/
theorem run2_v52 : (StableHlo.after hostOps2_1 (StableHlo.after hostOps2 V)) (Proc.devRef .tc main_v52) = shapeCast S1x128 (V (Proc.devRef .tc main_arg6)) shapeCasts_S128_S1x128 := by
  after_results_simp
  rfl
/-- The classifier's bias as a row. -/
theorem run2_v53 : (StableHlo.after hostOps2_1 (StableHlo.after hostOps2 V)) (Proc.devRef .tc main_v53) = shapeCast S1x10 (V (Proc.devRef .tc main_arg8)) shapeCasts_S10_S1x10 := by
  after_results_simp
  rfl
theorem run2_arg7 : (StableHlo.after hostOps2_1 (StableHlo.after hostOps2 V)) (Proc.devRef .tc main_arg7) = V (Proc.devRef .tc main_arg7) := by
  after_results_simp

end Short

variable (m : (ℓ : Loc nD τ sig) → Buf (Elt Ideal) ℓ) (ρ : Dev nD → PrngReg) (c : Dev nD)

/-! ## The boundaries

At launch an argument's buffer holds the argument. Region 0 is entered after the five stretches run from the launch
contents; region 1 after the two stretches run from region 0's exit contents; region 2 after the two run from region
1's exit contents. A region rewrites its own arrays only: every other buffer leaves it as it entered. -/

/-- Region 0's entry: the messages' sources, destinations and coefficients, and the two arrays the first kernel reads. -/
theorem W5_src : W5 m ρ c (Proc.devRef .tc main_v3) = srcOf (m ((c : Thread nD τ).loc main_arg1)) :=
  run0_v3 (W0 m ρ c)
theorem W5_dst : W5 m ρ c (Proc.devRef .tc main_v6) = dstOf (m ((c : Thread nD τ).loc main_arg1)) :=
  run0_v6 (W0 m ρ c)
theorem W5_norm : W5 m ρ c (Proc.devRef .tc main_v34) = normOf (F := Ideal) (m ((c : Thread nD τ).loc main_arg1)) (m ((c : Thread nD τ).loc main_arg2)) :=
  run0_v34 (W0 m ρ c)
theorem W5_x : W5 m ρ c (Proc.devRef .tc main_arg0) = (m ((c : Thread nD τ).loc main_arg0)) :=
  run0_arg0 (W0 m ρ c)
theorem W5_W1 : W5 m ρ c (Proc.devRef .tc main_arg3) = (m ((c : Thread nD τ).loc main_arg3)) :=
  run0_arg3 (W0 m ρ c)
/-- The arguments the later kernels read are still the arguments there. -/
theorem W5_at_arg4 : W5 m ρ c (Proc.devRef .tc main_arg4) = (m ((c : Thread nD τ).loc main_arg4)) :=
  run0_arg4 (W0 m ρ c)
theorem W5_at_arg5 : W5 m ρ c (Proc.devRef .tc main_arg5) = (m ((c : Thread nD τ).loc main_arg5)) :=
  run0_arg5 (W0 m ρ c)
theorem W5_at_arg6 : W5 m ρ c (Proc.devRef .tc main_arg6) = (m ((c : Thread nD τ).loc main_arg6)) :=
  run0_arg6 (W0 m ρ c)
theorem W5_at_arg7 : W5 m ρ c (Proc.devRef .tc main_arg7) = (m ((c : Thread nD τ).loc main_arg7)) :=
  run0_arg7 (W0 m ρ c)
theorem W5_at_arg8 : W5 m ρ c (Proc.devRef .tc main_arg8) = (m ((c : Thread nD τ).loc main_arg8)) :=
  run0_arg8 (W0 m ρ c)
/-- Region 0's exit: its output array is what the pipeline's write-backs leave. -/
theorem W6_h1 : W6 m ρ c (Proc.devRef .tc main_v35) = (dat0 (V5 m ρ) c).arrAt 2 cfg0.N :=
  W6_arr m ρ c 2
/-- Region 0's exit: what it neither reads through a window nor writes is as at its entry. -/
theorem W6_at_v3 : W6 m ρ c (Proc.devRef .tc main_v3) = srcOf (m ((c : Thread nD τ).loc main_arg1)) :=
  (W6_of_ne m ρ c main_v3 (by decide)).trans (W5_src m ρ c)
theorem W6_at_v6 : W6 m ρ c (Proc.devRef .tc main_v6) = dstOf (m ((c : Thread nD τ).loc main_arg1)) :=
  (W6_of_ne m ρ c main_v6 (by decide)).trans (W5_dst m ρ c)
theorem W6_at_v34 : W6 m ρ c (Proc.devRef .tc main_v34) = normOf (F := Ideal) (m ((c : Thread nD τ).loc main_arg1)) (m ((c : Thread nD τ).loc main_arg2)) :=
  (W6_of_ne m ρ c main_v34 (by decide)).trans (W5_norm m ρ c)
theorem W6_at_arg4 : W6 m ρ c (Proc.devRef .tc main_arg4) = (m ((c : Thread nD τ).loc main_arg4)) :=
  (W6_of_ne m ρ c main_arg4 (by decide)).trans (W5_at_arg4 m ρ c)
theorem W6_at_arg5 : W6 m ρ c (Proc.devRef .tc main_arg5) = (m ((c : Thread nD τ).loc main_arg5)) :=
  (W6_of_ne m ρ c main_arg5 (by decide)).trans (W5_at_arg5 m ρ c)
theorem W6_at_arg6 : W6 m ρ c (Proc.devRef .tc main_arg6) = (m ((c : Thread nD τ).loc main_arg6)) :=
  (W6_of_ne m ρ c main_arg6 (by decide)).trans (W5_at_arg6 m ρ c)
theorem W6_at_arg7 : W6 m ρ c (Proc.devRef .tc main_arg7) = (m ((c : Thread nD τ).loc main_arg7)) :=
  (W6_of_ne m ρ c main_arg7 (by decide)).trans (W5_at_arg7 m ρ c)
theorem W6_at_arg8 : W6 m ρ c (Proc.devRef .tc main_arg8) = (m ((c : Thread nD τ).loc main_arg8)) :=
  (W6_of_ne m ρ c main_arg8 (by decide)).trans (W5_at_arg8 m ρ c)
/-- Region 1's entry: the first round of message passing over region 0's output, the bias as a row, the weight. -/
theorem W8_agg : W8 m ρ c (Proc.devRef .tc main_v42)
    = aggOf (F := Ideal) (takeFill (F := Ideal) (W6 m ρ c (Proc.devRef .tc main_v35)) (srcOf (m ((c : Thread nD τ).loc main_arg1)))) (dstOf (m ((c : Thread nD τ).loc main_arg1))) (normOf (F := Ideal) (m ((c : Thread nD τ).loc main_arg1)) (m ((c : Thread nD τ).loc main_arg2))) := by
  have h := run1_v42 (W6 m ρ c)
  rw [W6_at_v3 m ρ c, W6_at_v6 m ρ c, W6_at_v34 m ρ c] at h
  exact h
theorem W8_b1 : W8 m ρ c (Proc.devRef .tc main_v43) = shapeCast S1x128 (m ((c : Thread nD τ).loc main_arg4)) shapeCasts_S128_S1x128 := by
  have h := run1_v43 (W6 m ρ c)
  rw [W6_at_arg4 m ρ c] at h
  exact h
theorem W8_W2 : W8 m ρ c (Proc.devRef .tc main_arg5) = (m ((c : Thread nD τ).loc main_arg5)) :=
  (run1_arg5 (W6 m ρ c)).trans (W6_at_arg5 m ρ c)
/-- What the two stretches before region 1 do not write is as at region 0's exit. -/
theorem W8_at_v3 : W8 m ρ c (Proc.devRef .tc main_v3) = srcOf (m ((c : Thread nD τ).loc main_arg1)) :=
  (run1_v3 (W6 m ρ c)).trans (W6_at_v3 m ρ c)
theorem W8_at_v6 : W8 m ρ c (Proc.devRef .tc main_v6) = dstOf (m ((c : Thread nD τ).loc main_arg1)) :=
  (run1_v6 (W6 m ρ c)).trans (W6_at_v6 m ρ c)
theorem W8_at_v34 : W8 m ρ c (Proc.devRef .tc main_v34) = normOf (F := Ideal) (m ((c : Thread nD τ).loc main_arg1)) (m ((c : Thread nD τ).loc main_arg2)) :=
  (run1_v34 (W6 m ρ c)).trans (W6_at_v34 m ρ c)
theorem W8_at_arg6 : W8 m ρ c (Proc.devRef .tc main_arg6) = (m ((c : Thread nD τ).loc main_arg6)) :=
  (run1_arg6 (W6 m ρ c)).trans (W6_at_arg6 m ρ c)
theorem W8_at_arg7 : W8 m ρ c (Proc.devRef .tc main_arg7) = (m ((c : Thread nD τ).loc main_arg7)) :=
  (run1_arg7 (W6 m ρ c)).trans (W6_at_arg7 m ρ c)
theorem W8_at_arg8 : W8 m ρ c (Proc.devRef .tc main_arg8) = (m ((c : Thread nD τ).loc main_arg8)) :=
  (run1_arg8 (W6 m ρ c)).trans (W6_at_arg8 m ρ c)
/-- Region 1's exit. -/
theorem W9_h2 : W9 m ρ c (Proc.devRef .tc main_v44) = (dat1 (V8 m ρ) c).arrAt 3 cfg1.N :=
  W9_arr m ρ c 3
/-- Region 1's exit: what it neither reads through a window nor writes is as at its entry. -/
theorem W9_at_v3 : W9 m ρ c (Proc.devRef .tc main_v3) = srcOf (m ((c : Thread nD τ).loc main_arg1)) :=
  (W9_of_ne m ρ c main_v3 (by decide)).trans (W8_at_v3 m ρ c)
theorem W9_at_v6 : W9 m ρ c (Proc.devRef .tc main_v6) = dstOf (m ((c : Thread nD τ).loc main_arg1)) :=
  (W9_of_ne m ρ c main_v6 (by decide)).trans (W8_at_v6 m ρ c)
theorem W9_at_v34 : W9 m ρ c (Proc.devRef .tc main_v34) = normOf (F := Ideal) (m ((c : Thread nD τ).loc main_arg1)) (m ((c : Thread nD τ).loc main_arg2)) :=
  (W9_of_ne m ρ c main_v34 (by decide)).trans (W8_at_v34 m ρ c)
theorem W9_at_arg6 : W9 m ρ c (Proc.devRef .tc main_arg6) = (m ((c : Thread nD τ).loc main_arg6)) :=
  (W9_of_ne m ρ c main_arg6 (by decide)).trans (W8_at_arg6 m ρ c)
theorem W9_at_arg7 : W9 m ρ c (Proc.devRef .tc main_arg7) = (m ((c : Thread nD τ).loc main_arg7)) :=
  (W9_of_ne m ρ c main_arg7 (by decide)).trans (W8_at_arg7 m ρ c)
theorem W9_at_arg8 : W9 m ρ c (Proc.devRef .tc main_arg8) = (m ((c : Thread nD τ).loc main_arg8)) :=
  (W9_of_ne m ρ c main_arg8 (by decide)).trans (W8_at_arg8 m ρ c)
/-- Region 2's entry: the second round over region 1's output, the two biases as rows, the weight. -/
theorem W11_agg : W11 m ρ c (Proc.devRef .tc main_v51)
    = aggOf (F := Ideal) (takeFill (F := Ideal) (W9 m ρ c (Proc.devRef .tc main_v44)) (srcOf (m ((c : Thread nD τ).loc main_arg1)))) (dstOf (m ((c : Thread nD τ).loc main_arg1))) (normOf (F := Ideal) (m ((c : Thread nD τ).loc main_arg1)) (m ((c : Thread nD τ).loc main_arg2))) := by
  have h := run2_v51 (W9 m ρ c)
  rw [W9_at_v3 m ρ c, W9_at_v6 m ρ c, W9_at_v34 m ρ c] at h
  exact h
theorem W11_b2 : W11 m ρ c (Proc.devRef .tc main_v52) = shapeCast S1x128 (m ((c : Thread nD τ).loc main_arg6)) shapeCasts_S128_S1x128 := by
  have h := run2_v52 (W9 m ρ c)
  rw [W9_at_arg6 m ρ c] at h
  exact h
theorem W11_bc : W11 m ρ c (Proc.devRef .tc main_v53) = shapeCast S1x10 (m ((c : Thread nD τ).loc main_arg8)) shapeCasts_S10_S1x10 := by
  have h := run2_v53 (W9 m ρ c)
  rw [W9_at_arg8 m ρ c] at h
  exact h
theorem W11_Wc : W11 m ρ c (Proc.devRef .tc main_arg7) = (m ((c : Thread nD τ).loc main_arg7)) :=
  (run2_arg7 (W9 m ρ c)).trans (W9_at_arg7 m ρ c)
/-- Region 2's exit: the program's result. -/
theorem W12_out : W12 m ρ c (Proc.devRef .tc main_v54) = (dat2 (V11 m ρ) c).arrAt 4 cfg2.N :=
  W12_arr m ρ c 4

end Cert.KernelIdeal.Hand

end
-- ==== Proof.LibMask.lean ====
/-
  Index words in range, and masks that are one everywhere.

  An index into an axis of extent `N`, given as a signed 32-bit word `e` with `-N ≤ e < N`, is first
  wrapped the way NumPy wraps it (`e + N` when `e` is negative, else `e`); the wrapped word then lies in
  `[0, N - 1]`. A gather that fills the rows whose index is out of range tests exactly that range, so
  for such words its test holds on every row, the fill is never taken, and the filled gather is the
  plain gather. The pieces: the range of the wrapped word; a reduction by `and` of a mask that is one
  everywhere, from the initial value one, is one at every result index; a select whose condition is
  one at every index is its first branch.
-/
import Idealize.ShloMosaic.Lib.ReduceAll
import Idealize.ShloMosaic.Lib.StableHlo.Predicate
import Idealize.ShloMosaic.Lib.ValueIdx

noncomputable section

namespace Idealize.ShloMosaic.IndexMask

open Idealize.ShloMosaic

/-- A small natural as a 32-bit word reads as itself, signed. -/
theorem toInt_ofNat (N : Nat) (hN : N < 2 ^ 31) : (BitVec.ofNat 32 N).toInt = (N : Int) :=
  StableHlo.Predicate.toInt_ofNat_small N hN

/-- The zero word reads as zero. -/
theorem toInt_zero32 : (0#32 : BitVec 32).toInt = 0 := by decide

/-- THE WRAPPED INDEX IS IN RANGE: for `-N ≤ e < N` the word `if e < 0 then e + N else e` lies in `[0, N - 1]`. -/
theorem wrap_range (N : Nat) (hN : N < 2 ^ 31) (e : BitVec 32) (lo : -(N : Int) ≤ e.toInt) (hi : e.toInt < (N : Int)) :
    0 ≤ (Scalar.select (IntOp.cmpi .slt e 0#32) (IntOp.addi e (BitVec.ofNat 32 N)) e).toInt
    ∧ (Scalar.select (IntOp.cmpi .slt e 0#32) (IntOp.addi e (BitVec.ofNat 32 N)) e).toInt ≤ (N : Int) - 1 := by
  unfold Scalar.select
  by_cases h : IntOp.cmpi .slt e 0#32 = 1
  · rw [if_pos h]
    have h0 : e.toInt < 0 := by
      have := IntOp.cmpi_slt.mp h
      rwa [toInt_zero32] at this
    have hs : (IntOp.addi e (BitVec.ofNat 32 N)).toInt = e.toInt + (N : Int) := by
      unfold IntOp.addi
      rw [BitVec.toInt_add, toInt_ofNat N hN]
      have h31 : ((2 : Int) ^ 31) = 2147483648 := by norm_num
      have hN' : (N : Int) < 2147483648 := by exact_mod_cast (by omega : N < 2147483648)
      apply Int.bmod_eq_of_le <;> norm_num <;> omega
    rw [hs]
    omega
  · rw [if_neg h]
    have h0 : ¬ e.toInt < 0 := by
      intro hlt
      apply h
      apply IntOp.cmpi_slt.mpr
      rwa [toInt_zero32]
    omega

/-- A left fold by `and` from one over words that are all one is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A `stablehlo.reduce` by `and`, from the initial value one, of a mask that is one at every index is one at every
    result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

/-- A select whose condition is one at every index is its first branch. -/
theorem select_of_all_one {s : Shape} {α : Type} (c : IVec s 1) (a b : s.Idx → α) (hc : ∀ i, c i = 1#1) : select c a b = a := by
  funext i
  show Scalar.select (c i) (a i) (b i) = a i
  rw [hc i]
  rfl

end Idealize.ShloMosaic.IndexMask

end
-- ==== Proof.TakeFill.lean ====
/-
  The gather of node-feature rows at the messages' sources, under the precondition.

  The kernel program reads the rows with a gather that writes a fill value (a NaN pattern) into every row whose
  wrapped index falls outside `[0, 49999]`; the reference reads them with the plain gather. The precondition says
  every source id of the edge list lies in `[-50000, 50000)`. Wrapped NumPy's way such an id lies in
  `[0, 49999]`; the remaining 50000 messages are the self loops, whose ids `0 … 49999` need no wrapping. So the
  range test holds on every row, its reduction over the index column is one everywhere, and the select keeps the
  gathered row everywhere.
-/
import proofs.«408532_j34540126994447_1_alg».proof.Proof.KHostDefs
import proofs.«408532_j34540126994447_1_alg».proof.Proof.LibMask
import proofs.«408532_j34540126994447_1_alg».proof.Pre_finite_inputs
import proofs.«408532_j34540126994447_1_alg».proof.Proof.Gen.Pre_finite_inputs
import Idealize.ShloMosaic.Lib.Pipeline.Value

noncomputable section

namespace Cert.KernelIdeal.Hand

open Cert.KernelIdeal Cert.KernelIdeal.Gen Idealize.ShloMosaic Idealize.ShloMosaic.ValueIdx

/-- Row 0 of the edge list, cut out as a [1, 800000] slice and flattened, reads at `t` the edge list at `(0, t)`:
    the flattening keeps row-major positions, and the slice starts at the origin. -/
theorem row0_apply (x1 : IVec S2x800000 32) (hs : S2x800000.Slices ![0, 0] S1x800000) (hc : S1x800000.ShapeCasts S800000)
    (t : Fin 800000) :
    shapeCast S800000 (extractStridedSlice S1x800000 ![0, 0] x1 hs) hc (ix1 t) = x1 (ix2 (n0 := 2) (n1 := 800000) 0 t) := by
  refine (shapeCast_apply _ hc (ix1 t) (ix2 (n0 := 1) (n1 := 800000) 0 t) ?_).trans ?_
  · rw [Shape.rowMajor_val_two, Shape.rowMajor_val_one]
    show 0 * 800000 + t.val = t.val
    omega
  · refine extractStridedSlice_apply _ _ hs _ _ fun a => ?_
    match a with
    | ⟨0, _⟩ => rfl
    | ⟨1, _⟩ => show t.val = 0 + t.val; omega

/-- THE PRECONDITION, READ: every source node id of the edge list (row 0) lies in `[-50000, 50000)`, the range in which
    an index into 50000 rows is in bounds NumPy's way. -/
theorem src_range_of_pre (x0 : FVec Ideal S50000x500 .f32) (x1 : IVec S2x800000 32) (x2 : FVec Ideal S800000 .f32) (x3 : FVec Ideal S500x128 .f32)
    (x4 : FVec Ideal S128 .f32) (x5 : FVec Ideal S128x128 .f32) (x6 : FVec Ideal S128 .f32) (x7 : FVec Ideal S128x10 .f32) (x8 : FVec Ideal S10 .f32)
    (hpre : Cert.Pre_finite_inputs.fn (F := Ideal) x0 x1 x2 x3 x4 x5 x6 x7 x8 = fun _ => 1#1) :
    ∀ t : Fin 800000, -50000 ≤ (x1 (ix2 (n0 := 2) (n1 := 800000) 0 t)).toInt ∧ (x1 (ix2 (n0 := 2) (n1 := 800000) 0 t)).toInt < 50000 := by
  intro t
  -- the scalar shape has one index, so a reduction to it that is one had a one at every entry
  haveI : Subsingleton S_.Idx := ⟨fun a b => funext fun d => d.elim0⟩
  -- the precondition is a conjunction; its last two conjuncts are the two range tests on row 0, each reduced by `and`
  have h0 := congrFun hpre ValueIdx.ix0
  dsimp only [Cert.Pre_finite_inputs.fn, Cert.Pre_finite_inputs.fn_part1, Cert.Pre_finite_inputs.fn_part2] at h0
  obtain ⟨h1, hlt⟩ := IntOp.andi_eq_one.mp h0
  obtain ⟨_, hge⟩ := IntOp.andi_eq_one.mp h1
  have hge' := Host.reduce_andi_all _ _ _ _ _ hge (ix1 t)
  have hlt' := Host.reduce_andi_all _ _ _ _ _ hlt (ix1 t)
  -- entry `t` of each test compares the word at `(0, t)` with the bound, signed
  have e1 := IntOp.cmpi_sge.mp hge'
  have e2 := IntOp.cmpi_slt.mp hlt'
  rw [row0_apply] at e1 e2
  refine ⟨?_, ?_⟩
  · refine le_trans (le_of_eq ?_) e1
    show (-50000 : Int) = (4294917296#32 : BitVec 32).toInt
    decide
  · refine lt_of_lt_of_le e2 (le_of_eq ?_)
    show (50000#32 : BitVec 32).toInt = (50000 : Int)
    decide

/-- A source word read at message `k`: an edge's source id for `k < 800000`, the self loop's node `k - 800000`
    after that; both lie in `[-50000, 50000)`. -/
theorem srcOf_range (x1 : IVec S2x800000 32)
    (hr : ∀ t : Fin 800000, -50000 ≤ (x1 (ix2 (n0 := 2) (n1 := 800000) 0 t)).toInt ∧ (x1 (ix2 (n0 := 2) (n1 := 800000) 0 t)).toInt < 50000)
    (k : Fin 850000) : -50000 ≤ (srcOf x1 (ix1 k)).toInt ∧ (srcOf x1 (ix1 k)).toInt < 50000 := by
  unfold srcOf
  by_cases hk : k.val < 800000
  · rw [concatenate_pair_apply_left (0 : Fin S850000.rank) _ _ concatenates_S800000_S50000_S850000_d0 (ix1 k) rfl
      (ix1 (⟨k.val, hk⟩ : Fin 800000)) (fun b => by match b with | ⟨0, _⟩ => rfl)]
    rw [row0_apply]
    exact hr ⟨k.val, hk⟩
  · have hk2 : k.val - 800000 < 50000 := by have := k.isLt; omega
    rw [concatenate_pair_apply_right (0 : Fin S850000.rank) _ _ concatenates_S800000_S50000_S850000_d0 (ix1 k) rfl rfl
      (ix1 (⟨k.val - 800000, hk2⟩ : Fin 50000)) (fun b hb => absurd (Subsingleton.elim (α := Fin 1) _ _) hb)
      (by show k.val - 800000 + 800000 = k.val; omega)]
    show -50000 ≤ (BitVec.ofNat 32 (k.val - 800000)).toInt ∧ (BitVec.ofNat 32 (k.val - 800000)).toInt < 50000
    rw [IndexMask.toInt_ofNat _ (by omega)]
    omega

/-- The wrapped word at a message: the word plus 50000 when it is negative, else the word. -/
theorem wrapOf_apply (s : IVec S850000 32) (k : S850000.Idx) :
    wrapOf s k = Scalar.select (IntOp.cmpi .slt (s k) 0#32) (IntOp.addi (s k) (BitVec.ofNat 32 50000)) (s k) := rfl

/-- The column of a vector reads, at row `p`, the vector at `p`. -/
theorem colI_apply (v : IVec S850000 32) (j : S850000x1.Idx) : colI v j = v (ix1 (⟨(j 0).val, idx2_lt0 j⟩ : Fin 850000)) :=
  broadcastInDim_apply ![0] bcast_S850000_S850000x1_0 v j _ fun a => by
    match a with
    | ⟨0, _⟩ => rfl

/-- With every source id of the edge list in range, every message's wrapped source index is in `[0, 49999]` (the self
    loops' ids `0 … 49999` are in range by themselves), so the filling gather fills nothing: it is the plain gather
    at the wrapped indices. -/
theorem takeFill_eq_gather (x1 : IVec S2x800000 32)
    (hr : ∀ t : Fin 800000, -50000 ≤ (x1 (ix2 (n0 := 2) (n1 := 800000) 0 t)).toInt ∧ (x1 (ix2 (n0 := 2) (n1 := 800000) 0 t)).toInt < 50000)
    (h : FVec Ideal S50000x128 .f32) :
    takeFill h (srcOf x1) = Host.gather gather_S50000x128_S850000x1_S850000x128_1_0_n_n_0_1_1128 h (colI (wrapOf (srcOf x1))) := by
  unfold takeFill
  refine IndexMask.select_of_all_one _ _ _ fun i => ?_
  -- the mask at `(p, q)` is the reduction's value at row `p`
  rw [broadcastInDim_apply ![0] bcast_S850000_S850000x128_0 _ i (ix1 (⟨(i 0).val, idx2_lt0 i⟩ : Fin 850000))
    (fun a => by match a with | ⟨0, _⟩ => rfl)]
  refine IndexMask.reduce_andi_of_all_one _ _ reducesTo_S850000x1_S850000_d1 h_S_ (fun j => ?_) (fun _ => rfl) _
  -- at every entry of the index column both range tests hold
  obtain ⟨lo, hi⟩ := srcOf_range x1 hr ⟨(j 0).val, idx2_lt0 j⟩
  obtain ⟨b0, b1⟩ := IndexMask.wrap_range 50000 (by norm_num) _ (by exact_mod_cast lo) (by exact_mod_cast hi)
  refine IntOp.andi_eq_one.mpr ⟨IntOp.cmpi_sge.mpr ?_, IntOp.cmpi_sle.mpr ?_⟩
  · rw [colI_apply, wrapOf_apply]
    show (0#32 : BitVec 32).toInt ≤ _
    rw [IndexMask.toInt_zero32]
    exact b0
  · rw [colI_apply, wrapOf_apply]
    show _ ≤ (49999#32 : BitVec 32).toInt
    rw [show (49999#32 : BitVec 32).toInt = 49999 from by decide]
    have : ((50000 : Nat) : Int) - 1 = 49999 := by norm_num
    omega

end Cert.KernelIdeal.Hand

end
-- ==== Proof.RefSide.lean ====
/-
  The reference program read as a function of its arguments, in the kernel program's vocabulary.

  The reference computes the graph's normalisation exactly as the kernel program's host side does (the same
  operations in the same order), so its messages' sources, destinations and coefficients are the kernel side's
  `srcOf`, `dstOf`, `normOf`, and each of its two rounds of message passing is the kernel side's `aggOf` over the PLAIN
  gather at the wrapped source indices. Its three dense layers are host dot products: at the ideal instance a dot
  product with the matrix product's dimension numbers is `Gcn.mm`; a bias vector broadcast to every row and added,
  followed by the maximum with a zero splat, is `Gcn.biasRelu` of the bias kept as a one-row array; the output bias
  broadcast and added is `Gcn.addRow`.
-/
import proofs.«408532_j34540126994447_1_alg».proof.Proof.Gen.ReferenceIdeal.Run
import proofs.«408532_j34540126994447_1_alg».proof.Proof.Gen.ReferenceIdeal.Read
import proofs.«408532_j34540126994447_1_alg».proof.Proof.KHostDefs
import proofs.«408532_j34540126994447_1_alg».proof.Proof.GcnSpec
import Idealize.ShloMosaic.Lib.Pipeline.Value
import Idealize.ShloMosaic.Lib.ValueLayout

noncomputable section

namespace Cert.ReferenceIdeal.Hand

open Cert.ReferenceIdeal Cert.ReferenceIdeal.Gen Cert.ReferenceIdeal.Read Idealize.ShloMosaic Idealize.ShloMosaic.ValueIdx

variable (x0 : FVec Ideal S50000x500 .f32) (x1 : IVec S2x800000 32) (x2 : FVec Ideal S800000 .f32) (x3 : FVec Ideal S500x128 .f32)
  (x4 : FVec Ideal S128 .f32) (x5 : FVec Ideal S128x128 .f32) (x6 : FVec Ideal S128 .f32) (x7 : FVec Ideal S128x10 .f32) (x8 : FVec Ideal S10 .f32)

/-! ## The shared host chain -/

/-- The reference's message sources, destinations and coefficients are the kernel side's. -/
theorem src_eq : val_main_v3 (F := Ideal) x1 = Cert.KernelIdeal.Hand.srcOf x1 := rfl
theorem dst_eq : val_main_v6 (F := Ideal) x1 = Cert.KernelIdeal.Hand.dstOf x1 := rfl
theorem wrap1_eq : val_main_v40 (F := Ideal) x1 = Cert.KernelIdeal.Hand.wrapOf (Cert.KernelIdeal.Hand.srcOf x1) := rfl
theorem wrap2_eq : val_main_v58 (F := Ideal) x1 = Cert.KernelIdeal.Hand.wrapOf (Cert.KernelIdeal.Hand.srcOf x1) := rfl
theorem norm_eq : val_main_v34 (F := Ideal) x1 x2 = Cert.KernelIdeal.Hand.normOf (F := Ideal) x1 x2 := rfl

/-- The first round of message passing, over the first layer's product. -/
theorem agg1_eq : val_main_v48 (F := Ideal) x0 x1 x2 x3
    = Cert.KernelIdeal.Hand.aggOf (F := Ideal) (Host.gather Cert.KernelIdeal.gather_S50000x128_S850000x1_S850000x128_1_0_n_n_0_1_1128 (val_main_v35 (F := Ideal) x0 x3) (Cert.KernelIdeal.Hand.colI (Cert.KernelIdeal.Hand.wrapOf (Cert.KernelIdeal.Hand.srcOf x1))))
        (Cert.KernelIdeal.Hand.dstOf x1) (Cert.KernelIdeal.Hand.normOf (F := Ideal) x1 x2) := rfl

/-- The second round, over the second layer's product. -/
theorem agg2_eq : val_main_v66 (F := Ideal) x0 x1 x2 x3 x4 x5
    = Cert.KernelIdeal.Hand.aggOf (F := Ideal) (Host.gather Cert.KernelIdeal.gather_S50000x128_S850000x1_S850000x128_1_0_n_n_0_1_1128 (val_main_v53 (F := Ideal) x0 x1 x2 x3 x4 x5) (Cert.KernelIdeal.Hand.colI (Cert.KernelIdeal.Hand.wrapOf (Cert.KernelIdeal.Hand.srcOf x1))))
        (Cert.KernelIdeal.Hand.dstOf x1) (Cert.KernelIdeal.Hand.normOf (F := Ideal) x1 x2) := rfl

/-! ## The dense layers -/

/-- A bias vector reshaped to one row reads, at `(0, k)`, the vector at `k`. -/
theorem row128_apply (b : FVec Ideal S128 .f32) (k : Fin 128) :
    shapeCast Cert.KernelIdeal.S1x128 b Cert.KernelIdeal.Gen.shapeCasts_S128_S1x128 (ix2 (n0 := 1) (n1 := 128) 0 k) = b (ix1 k) := by
  refine shapeCast_apply b _ _ (ix1 k) ?_
  rw [Shape.rowMajor_val_one, Shape.rowMajor_val_two]
  simp

theorem row10_apply (b : FVec Ideal S10 .f32) (k : Fin 10) :
    shapeCast Cert.KernelIdeal.S1x10 b Cert.KernelIdeal.Gen.shapeCasts_S10_S1x10 (ix2 (n0 := 1) (n1 := 10) 0 k) = b (ix1 k) := by
  refine shapeCast_apply b _ _ (ix1 k) ?_
  rw [Shape.rowMajor_val_one, Shape.rowMajor_val_two]
  simp

/-- The reference broadcasts a bias vector first to one row, then to every row: entry `(p, k)` reads the vector at `k`. -/
theorem idx_bias1 (p : Fin 50000) (k : Fin 128) : idx_main_v49 (idx_main_v50 (ix2 p k)) = ix1 k := by
  funext a; match a with | ⟨0, _⟩ => rfl
theorem idx_bias2 (p : Fin 50000) (k : Fin 128) : idx_main_v67 (idx_main_v68 (ix2 p k)) = ix1 k := by
  funext a; match a with | ⟨0, _⟩ => rfl
theorem idx_bias3 (p : Fin 50000) (q : Fin 10) : idx_main_v72 (idx_main_v73 (ix2 p q)) = ix1 q := by
  funext a; match a with | ⟨0, _⟩ => rfl

/-- The first layer: the host's dot product of the features by the first weight is the matrix product. -/
theorem h1_eq : val_main_v35 (F := Ideal) x0 x3 = Gcn.mm (M := 50000) (K := 500) (N := 128) x0 x3 :=
  Gcn.host_dot_eq_mm dot_S50000x500_S500x128_S50000x128_1_0_0_1_n_n.wf none x0 x3

/-- The reference's bias-add and relu before the second layer, as the one-row form. -/
theorem relu1_eq (a : FVec Ideal S50000x128 .f32) :
    maximumf (addf a (val_main_v50 (F := Ideal) x4)) (val_main_call2_v0 (F := Ideal))
      = Gcn.biasRelu (M := 50000) (K := 128) a (shapeCast Cert.KernelIdeal.S1x128 x4 Cert.KernelIdeal.Gen.shapeCasts_S128_S1x128) := by
  funext i
  obtain ⟨p, k, rfl⟩ : ∃ (p : Fin 50000) (k : Fin 128), i = ix2 p k := ⟨i 0, i 1, eq_ix2 i⟩
  rw [Gcn.biasRelu_apply, row128_apply, maximumf_apply, addf_apply, val_main_v50_apply, val_main_v49_apply, val_main_call2_v0_apply, idx_bias1]
  rfl

theorem relu2_eq (a : FVec Ideal S50000x128 .f32) :
    maximumf (addf a (val_main_v68 (F := Ideal) x6)) (val_main_call3_v0 (F := Ideal))
      = Gcn.biasRelu (M := 50000) (K := 128) a (shapeCast Cert.KernelIdeal.S1x128 x6 Cert.KernelIdeal.Gen.shapeCasts_S128_S1x128) := by
  funext i
  obtain ⟨p, k, rfl⟩ : ∃ (p : Fin 50000) (k : Fin 128), i = ix2 p k := ⟨i 0, i 1, eq_ix2 i⟩
  rw [Gcn.biasRelu_apply, row128_apply, maximumf_apply, addf_apply, val_main_v68_apply, val_main_v67_apply, val_main_call3_v0_apply, idx_bias2]
  rfl

/-- The second layer. -/
theorem h2_eq : val_main_v53 (F := Ideal) x0 x1 x2 x3 x4 x5
    = Gcn.mm (M := 50000) (K := 128) (N := 128)
        (Gcn.biasRelu (M := 50000) (K := 128) (val_main_v48 (F := Ideal) x0 x1 x2 x3) (shapeCast Cert.KernelIdeal.S1x128 x4 Cert.KernelIdeal.Gen.shapeCasts_S128_S1x128)) x5 := by
  unfold val_main_v53 val_main_v52 val_main_v51
  rw [relu1_eq]
  exact Gcn.host_dot_eq_mm dot_S50000x128_S128x128_S50000x128_1_0_0_1_n_n.wf none _ x5

/-- The output bias broadcast to every row and added is the one-row form. -/
theorem addbias_eq (a : FVec Ideal S50000x10 .f32) :
    addf a (val_main_v73 (F := Ideal) x8) = Gcn.addRow (M := 50000) (N := 10) a (shapeCast Cert.KernelIdeal.S1x10 x8 Cert.KernelIdeal.Gen.shapeCasts_S10_S1x10) := by
  funext i
  obtain ⟨p, q, rfl⟩ : ∃ (p : Fin 50000) (q : Fin 10), i = ix2 p q := ⟨i 0, i 1, eq_ix2 i⟩
  rw [Gcn.addRow_apply, row10_apply, addf_apply, val_main_v73_apply, val_main_v72_apply, idx_bias3]

/-- The classifier head: the reference's result. -/
theorem out_eq : val_main_v74 (F := Ideal) x0 x1 x2 x3 x4 x5 x6 x7 x8
    = Gcn.addRow (M := 50000) (N := 10)
        (Gcn.mm (M := 50000) (K := 128) (N := 10)
          (Gcn.biasRelu (M := 50000) (K := 128) (val_main_v66 (F := Ideal) x0 x1 x2 x3 x4 x5) (shapeCast Cert.KernelIdeal.S1x128 x6 Cert.KernelIdeal.Gen.shapeCasts_S128_S1x128)) x7)
        (shapeCast Cert.KernelIdeal.S1x10 x8 Cert.KernelIdeal.Gen.shapeCasts_S10_S1x10) := by
  unfold val_main_v74 val_main_v71 val_main_v70 val_main_v69
  rw [relu2_eq, addbias_eq]
  exact congrArg (fun z => Gcn.addRow (M := 50000) (N := 10) z (shapeCast Cert.KernelIdeal.S1x10 x8 Cert.KernelIdeal.Gen.shapeCasts_S10_S1x10))
    (Gcn.host_dot_eq_mm dot_S50000x128_S128x10_S50000x10_1_0_0_1_n_n.wf none _ x7)

end Cert.ReferenceIdeal.Hand

end
-- ==== Proof.Bridge.lean ====
/-
  The kernel program's result is the reference's, as functions of the argument arrays.

  Read back through @main: the result is the head kernel's array over the second aggregation, the second aggregation
  gathers the second kernel's array, which is over the first aggregation, which gathers the first kernel's array, the
  product of the node features by the first weight. Each kernel's array is its layer as a whole-array function
  (`Gcn.mm`, `Gcn.biasRelu`, `Gcn.addRow`); each gather, which in the kernel program fills out-of-range rows, is the
  plain gather, because under the precondition every wrapped source index is in range. The reference's stages, in
  the same vocabulary, give the same expression.
-/
import proofs.«408532_j34540126994447_1_alg».proof.Proof.KRegion0
import proofs.«408532_j34540126994447_1_alg».proof.Proof.KRegion1
import proofs.«408532_j34540126994447_1_alg».proof.Proof.KRegion2
import proofs.«408532_j34540126994447_1_alg».proof.Proof.KHost
import proofs.«408532_j34540126994447_1_alg».proof.Proof.TakeFill
import proofs.«408532_j34540126994447_1_alg».proof.Proof.RefSide

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg) (c : Dev nD)

/-- The hypothesis of the two lemmas below: every source node id of the edge list lies in `[-50000, 50000)`. -/
abbrev SrcInRange : Prop :=
  ∀ t : Fin 800000, -50000 ≤ ((m ((c : Thread nD τ).loc main_arg1)) (ValueIdx.ix2 (n0 := 2) (n1 := 800000) 0 t)).toInt
    ∧ ((m ((c : Thread nD τ).loc main_arg1)) (ValueIdx.ix2 (n0 := 2) (n1 := 800000) 0 t)).toInt < 50000

/-- The first kernel's array: the node features times the first weight. -/
theorem first_layer : W6 m ρ c (Proc.devRef .tc main_v35) = (Gcn.mm (M := 50000) (K := 500) (N := 128) (m ((c : Thread nD τ).loc main_arg0)) (m ((c : Thread nD τ).loc main_arg3))) := by
  rw [W6_h1, region0_array]
  have e0 : V5 m ρ c main_arg0 = m ((c : Thread nD τ).loc main_arg0) := W5_x m ρ c
  have e3 : V5 m ρ c main_arg3 = m ((c : Thread nD τ).loc main_arg3) := W5_W1 m ρ c
  rw [e0, e3]

/-- The first aggregation, over the plain gather. -/
theorem first_round (hr : SrcInRange m c) : W8 m ρ c (Proc.devRef .tc main_v42) = (aggOf (F := Ideal) (Host.gather gather_S50000x128_S850000x1_S850000x128_1_0_n_n_0_1_1128 (Gcn.mm (M := 50000) (K := 500) (N := 128) (m ((c : Thread nD τ).loc main_arg0)) (m ((c : Thread nD τ).loc main_arg3))) (colI (wrapOf (srcOf (m ((c : Thread nD τ).loc main_arg1)))))) (dstOf (m ((c : Thread nD τ).loc main_arg1))) (normOf (F := Ideal) (m ((c : Thread nD τ).loc main_arg1)) (m ((c : Thread nD τ).loc main_arg2)))) := by
  rw [W8_agg, first_layer, takeFill_eq_gather _ hr]

/-- The second kernel's array. -/
theorem second_layer (hr : SrcInRange m c) : W9 m ρ c (Proc.devRef .tc main_v44) = (Gcn.mm (M := 50000) (K := 128) (N := 128) (Gcn.biasRelu (M := 50000) (K := 128) (aggOf (F := Ideal) (Host.gather gather_S50000x128_S850000x1_S850000x128_1_0_n_n_0_1_1128 (Gcn.mm (M := 50000) (K := 500) (N := 128) (m ((c : Thread nD τ).loc main_arg0)) (m ((c : Thread nD τ).loc main_arg3))) (colI (wrapOf (srcOf (m ((c : Thread nD τ).loc main_arg1)))))) (dstOf (m ((c : Thread nD τ).loc main_arg1))) (normOf (F := Ideal) (m ((c : Thread nD τ).loc main_arg1)) (m ((c : Thread nD τ).loc main_arg2)))) (shapeCast S1x128 (m ((c : Thread nD τ).loc main_arg4)) shapeCasts_S128_S1x128)) (m ((c : Thread nD τ).loc main_arg5))) := by
  rw [W9_h2, region1_array]
  have e42 : V8 m ρ c main_v42 = _ := first_round m ρ c hr
  have e43 : V8 m ρ c main_v43 = _ := W8_b1 m ρ c
  have e5 : V8 m ρ c main_arg5 = _ := W8_W2 m ρ c
  rw [e42, e43, e5]

/-- The second aggregation, over the plain gather. -/
theorem second_round (hr : SrcInRange m c) : W11 m ρ c (Proc.devRef .tc main_v51) = (aggOf (F := Ideal) (Host.gather gather_S50000x128_S850000x1_S850000x128_1_0_n_n_0_1_1128 (Gcn.mm (M := 50000) (K := 128) (N := 128) (Gcn.biasRelu (M := 50000) (K := 128) (aggOf (F := Ideal) (Host.gather gather_S50000x128_S850000x1_S850000x128_1_0_n_n_0_1_1128 (Gcn.mm (M := 50000) (K := 500) (N := 128) (m ((c : Thread nD τ).loc main_arg0)) (m ((c : Thread nD τ).loc main_arg3))) (colI (wrapOf (srcOf (m ((c : Thread nD τ).loc main_arg1)))))) (dstOf (m ((c : Thread nD τ).loc main_arg1))) (normOf (F := Ideal) (m ((c : Thread nD τ).loc main_arg1)) (m ((c : Thread nD τ).loc main_arg2)))) (shapeCast S1x128 (m ((c : Thread nD τ).loc main_arg4)) shapeCasts_S128_S1x128)) (m ((c : Thread nD τ).loc main_arg5))) (colI (wrapOf (srcOf (m ((c : Thread nD τ).loc main_arg1)))))) (dstOf (m ((c : Thread nD τ).loc main_arg1))) (normOf (F := Ideal) (m ((c : Thread nD τ).loc main_arg1)) (m ((c : Thread nD τ).loc main_arg2)))) := by
  rw [W11_agg, second_layer m ρ c hr, takeFill_eq_gather _ hr]

/-- The program's result as a function of the argument arrays. -/
theorem result_closed (hr : SrcInRange m c) : W12 m ρ c (Proc.devRef .tc main_v54) = (Gcn.addRow (M := 50000) (N := 10) (Gcn.mm (M := 50000) (K := 128) (N := 10) (Gcn.biasRelu (M := 50000) (K := 128) (aggOf (F := Ideal) (Host.gather gather_S50000x128_S850000x1_S850000x128_1_0_n_n_0_1_1128 (Gcn.mm (M := 50000) (K := 128) (N := 128) (Gcn.biasRelu (M := 50000) (K := 128) (aggOf (F := Ideal) (Host.gather gather_S50000x128_S850000x1_S850000x128_1_0_n_n_0_1_1128 (Gcn.mm (M := 50000) (K := 500) (N := 128) (m ((c : Thread nD τ).loc main_arg0)) (m ((c : Thread nD τ).loc main_arg3))) (colI (wrapOf (srcOf (m ((c : Thread nD τ).loc main_arg1)))))) (dstOf (m ((c : Thread nD τ).loc main_arg1))) (normOf (F := Ideal) (m ((c : Thread nD τ).loc main_arg1)) (m ((c : Thread nD τ).loc main_arg2)))) (shapeCast S1x128 (m ((c : Thread nD τ).loc main_arg4)) shapeCasts_S128_S1x128)) (m ((c : Thread nD τ).loc main_arg5))) (colI (wrapOf (srcOf (m ((c : Thread nD τ).loc main_arg1)))))) (dstOf (m ((c : Thread nD τ).loc main_arg1))) (normOf (F := Ideal) (m ((c : Thread nD τ).loc main_arg1)) (m ((c : Thread nD τ).loc main_arg2)))) (shapeCast S1x128 (m ((c : Thread nD τ).loc main_arg6)) shapeCasts_S128_S1x128)) (m ((c : Thread nD τ).loc main_arg7))) (shapeCast S1x10 (m ((c : Thread nD τ).loc main_arg8)) shapeCasts_S10_S1x10)) := by
  rw [W12_out, region2_array]
  have e51 : V11 m ρ c main_v51 = _ := second_round m ρ c hr
  have e52 : V11 m ρ c main_v52 = _ := W11_b2 m ρ c
  have e7 : V11 m ρ c main_arg7 = _ := W11_Wc m ρ c
  have e53 : V11 m ρ c main_v53 = _ := W11_bc m ρ c
  rw [e51, e52, e7, e53]

/-- THE BRIDGE: the kernel program's result is the reference's last stage of the same argument arrays. -/
theorem result_eq_reference (hr : SrcInRange m c) :
    W12 m ρ c (Proc.devRef .tc main_v54)
      = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_closed m ρ c hr, Cert.ReferenceIdeal.Hand.out_eq, Cert.ReferenceIdeal.Hand.agg2_eq, Cert.ReferenceIdeal.Hand.h2_eq,
    Cert.ReferenceIdeal.Hand.agg1_eq, Cert.ReferenceIdeal.Hand.h1_eq]

end Cert.KernelIdeal.Hand

end
-- ==== Proof.lean ====
/-
  A two-layer graph convolution network's forward pass: three dense kernels on the accelerator with the message
  passing between them on the host, against the plain reference.

  Both programs compute, from the edge list and the edge weights, the messages (the edges and one self loop per
  node), each node's weighted in-degree and the coefficient `deg^(-1/2)[src] · w · deg^(-1/2)[dst]` of each message,
  with the same operations. A layer multiplies the node features by a weight matrix, gathers the product's rows at
  the messages' sources, scales them by the coefficients and adds them up by destination; the next layer adds a bias
  row and clips below at zero before its product; the head adds an output bias.

  At the ideal instance the kernels' products (short-float operands, accumulated into zero, block of 2000 rows by
  block) are the reference's dot products: the same sums over the contracted index of exact products, narrowing being
  the identity there. The one difference between the programs is the gather: the kernel program's fills with a fill
  value every row whose source index, wrapped NumPy's way, is outside `[0, 49999]`, and the reference's does not.
  Under the precondition — every float input finite, and every source id of the edge list in `[-50000, 50000)`,
  where an index into 50000 rows is in bounds NumPy's way — no row is filled and the two gathers agree. So the result
  arrays are one function of the argument arrays.

  The three frames: the kernel programs' are the generated frame certificates; the reference's is its generated run
  with the result dropped. The idealization rewrote nothing, so the preservation claim is trivial.
-/
import proofs.«408532_j34540126994447_1_alg».proof.Defs
import proofs.«408532_j34540126994447_1_alg».proof.Proof.Gen.Kernel
import proofs.«408532_j34540126994447_1_alg».proof.Proof.Gen.Kernel.Skeleton
import proofs.«408532_j34540126994447_1_alg».proof.Proof.Gen.Kernel.Launch
import proofs.«408532_j34540126994447_1_alg».proof.Proof.Gen.Kernel.Points
import proofs.«408532_j34540126994447_1_alg».proof.Proof.Gen.Kernel.Frame
import proofs.«408532_j34540126994447_1_alg».proof.Proof.Gen.KernelIdeal
import proofs.«408532_j34540126994447_1_alg».proof.Proof.Gen.KernelIdeal.Skeleton
import proofs.«408532_j34540126994447_1_alg».proof.Proof.Gen.KernelIdeal.Launch
import proofs.«408532_j34540126994447_1_alg».proof.Proof.Gen.KernelIdeal.Points
import proofs.«408532_j34540126994447_1_alg».proof.Proof.Gen.KernelIdeal.Frame
import proofs.«408532_j34540126994447_1_alg».proof.Proof.Gen.ReferenceIdeal
import proofs.«408532_j34540126994447_1_alg».proof.Proof.Gen.ReferenceIdeal.Run
import proofs.«408532_j34540126994447_1_alg».proof.Proof.Gen.ReferenceIdeal.Read
import proofs.«408532_j34540126994447_1_alg».proof.Proof.Gen.Pre_finite_inputs
import proofs.«408532_j34540126994447_1_alg».proof.Proof.KRun
import proofs.«408532_j34540126994447_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the kernel
    program's result, read back through its regions and host stretches, is the reference's last stage of the same
    arguments, the filling gathers being plain gathers under the precondition's range of the source ids. -/
theorem algebraic : Cert.algebraic_KernelIdeal_ReferenceIdeal := by
  intro m ρ m' ρ' hpre hagree
  refine ⟨fun c => Cert.KernelIdeal.Gen.W12 m ρ c (Proc.devRef .tc Cert.KernelIdeal.main_v54),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  have hr := Cert.KernelIdeal.Hand.src_range_of_pre _ _ _ _ _ _ _ _ _ (hpre c)
  obtain ⟨a0, a1, a2, a3, a4, a5, a6, a7, a8⟩ := hagree c
  rw [Cert.ReferenceIdeal.Read.val_main_v74_eq, a0, a1, a2, a3, a4, a5, a6, a7, a8]
  exact (Cert.KernelIdeal.Hand.result_eq_reference m ρ c hr).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
